-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x256 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x256 .f32 := Host.absf main_arg2
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S1x128 : Shape := ⟨2, ![1, 128]⟩
abbrev S2x5000x128 : Shape := ⟨3, ![2, 5000, 128]⟩
abbrev S200x10000 : Shape := ⟨2, ![200, 10000]⟩
abbrev S2x200x128 : Shape := ⟨3, ![2, 200, 128]⟩
abbrev S128x128 : Shape := ⟨2, ![128, 128]⟩
abbrev S200x128 : Shape := ⟨2, ![200, 128]⟩
abbrev S1x200x128 : Shape := ⟨3, ![1, 200, 128]⟩

abbrev nBuf : Space → Nat
  | .hbm => 7
  | .vmem => 10
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S1x128, .f32⟩
  | .hbm, ⟨5, _⟩ => ⟨S2x5000x128, .f32⟩
  | .hbm, ⟨6, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x256, .f32⟩
  | .local _ .vmem, ⟨6, _⟩ => ⟨S1x128, .f32⟩
  | .local _ .vmem, ⟨7, _⟩ => ⟨S2x200x128, .f32⟩
  | .local _ .vmem, ⟨8, _⟩ => ⟨S2x200x128, .f32⟩
  | .local _ .vmem, ⟨9, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c200_i32 : BitVec 32 := 200#32
  let v4 : BitVec 32 := Scalar.muli arg0 c200_i32
  let v5 : Index := Scalar.indexCast v4
  let c0_2 : Index := 0#32
  ![v5.toNat, 0]
def k0_off2 (i : grid0.Coords) : Fin 2 → Nat :=
  let c5000_i32 : BitVec 32 := 5000#32
  let arg0 : BitVec 32 := BitVec.ofNat 32 (i 0).val
  let c200_i32_3 : BitVec 32 := 200#32
  let v7 : BitVec 32 := Scalar.muli arg0 c200_i32_3
  let v8 : BitVec 32 := Scalar.addi c5000_i32 v7
  let v9 : Index := Scalar.indexCast v8
  let c0_4 : Index := 0#32
  ![v9.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c25_i32 : BitVec 32 := 25#32
  let v0 : BitVec 32 := Scalar.addi arg0 c25_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x200x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  inb_S128x256_S128x128_0_128 : ∀ a, (![0, 128] : Fin 2 → Nat) a + S128x128.size a ≤ S128x256.size a
  h_S128x128 : 0 < S128x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  h_S200x128 : 0 < S200x128.numel
  inb_S128x256_S128x128_0_0 : ∀ a, (![0, 0] : Fin 2 → Nat) a + S128x128.size a ≤ S128x256.size a
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  inb_S200x10000_S200x10000_0_0 : ∀ a, (![0, 0] : Fin 2 → Nat) a + S200x10000.size a ≤ S200x10000.size a
  h_S200x10000 : 0 < S200x10000.numel
  inb_S2x200x128_S1x200x128_0_0_0 : ∀ a, (![0, 0, 0] : Fin 3 → Nat) a + S1x200x128.size a ≤ S2x200x128.size a
  h_S1x200x128 : 0 < S1x200x128.numel
  shapeCasts_S1x200x128_S200x128 : S1x200x128.ShapeCasts S200x128
  shapeCasts_S200x128_S1x200x128 : S200x128.ShapeCasts S1x200x128
  inb_S2x200x128_S1x200x128_1_0_0 : ∀ a, (![1, 0, 0] : Fin 3 → Nat) a + S1x200x128.size a ≤ S2x200x128.size a
  shapeCasts_S2x5000x128_S10000x128 : S2x5000x128.ShapeCasts S10000x128
  dot_S10000x128_S128x128_S10000x128_1_1_0_0_n_n_wf : DotDims.WF S10000x128 S128x128 S10000x128 [1] [1] [0] [0] [] []
  dot_S200x128_S128x128_S200x128_1_1_0_0_n_n_wf : DotDims.WF S200x128 S128x128 S200x128 [1] [1] [0] [0] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ a, (k0_off1 i) a + S200x128.size a ≤ S10000x128.size a
  k0_off2_inb : ∀ i : grid0.Coords, ∀ a, (k0_off2 i) a + S200x128.size a ≤ S10000x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x256.size a ≤ S128x256.size a
  hwx0_3 : ∀ i : grid0.Coords, EltTy.bits .f32 = 32 ∨ (Rect.block (s := S128x256) S128x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2x200x128.size a ≤ S2x5000x128.size a
  hwx0_5 : ∀ i : grid0.Coords, EltTy.bits .f32 = 32 ∨ (Rect.block (s := S2x5000x128) S2x200x128.size (cc0_transform_5 i) (hinb0_5 i)).WholeWords (EltTy.packing .f32)

variable [Facts₀]

def dot_S10000x128_S128x128_S10000x128_1_1_0_0_n_n : DotDims S10000x128 S128x128 S10000x128 where
  lhsContracting := [1]
  rhsContracting := [1]
  lhsNonContracting := [0]
  rhsNonContracting := [0]
  lhsBatch := []
  rhsBatch := []
  wf := dot_S10000x128_S128x128_S10000x128_1_1_0_0_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S2x200x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x256 : Shape := ⟨2, ![128, 256]⟩
abbrev S128 : Shape := ⟨1, ![128]⟩
abbrev S10000x256 : Shape := ⟨2, ![10000, 256]⟩
abbrev S256x128 : Shape := ⟨2, ![256, 128]⟩
abbrev S1x128 : Shape := ⟨2, ![1, 128]⟩

abbrev nBuf : Space → Nat
  | .hbm => 11
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x256, .f32⟩
  | .hbm, ⟨3, _⟩ => ⟨S128, .f32⟩
  | .hbm, ⟨4, _⟩ => ⟨S10000x128, .f32⟩
  | .hbm, ⟨5, _⟩ => ⟨S10000x256, .f32⟩
  | .hbm, ⟨6, _⟩ => ⟨S256x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  concatenates_S10000x128_S10000x128_S10000x256_d1 : Shape.Concatenates [S10000x128, S10000x128] S10000x256 1
  transposes_S128x256_S256x128_1_0 : S128x256.Transposes [1, 0] S256x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x256_S256x128_S10000x128_1_0_0_1_n_n_wf : DotDims.WF S10000x256 S256x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x256_S256x128_S10000x128_1_0_0_1_n_n : DotDims S10000x256 S256x128 S10000x128 where
  lhsContracting := [1]
  rhsContracting := [0]
  lhsNonContracting := [0]
  rhsNonContracting := [1]
  lhsBatch := []
  rhsBatch := []
  wf := dot_S10000x256_S256x128_S10000x128_1_0_0_1_n_n_wf

class Facts : Prop extends Facts₀ where

variable [Facts]
-- ==== Proof.FrameBits.Base.lean ====
import proofs.«101691_g50706383897204_cont_8to1c4_451_17_alg».proof.Proof.Gen.Kernel.Launch
import proofs.«101691_g50706383897204_cont_8to1c4_451_17_alg».proof.Proof.Gen.Kernel.Skeleton
import proofs.«101691_g50706383897204_cont_8to1c4_451_17_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # What the frame's pieces share

The program is one reshape of the bias, one pipelined region of 25 grid points, one reshape of the
result. The region has six windows: two row blocks of the adjacency matrix (the SAME array, rows
`200 t …` and `5000 + 200 t …`), the features, the weight and the reshaped bias (each one whole block,
fetched once), and the output block `[2, 200, 128]` written back at every point. A scratch buffer keeps
the projected features `x · W₂ᵀ` from the first point on.

Here: the buffers' contents when the region is entered, the blocks the input windows hold, the one
branch condition of the body (`t = 0`), and the names of the memrefs the body is called with. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: after the reshape of the bias. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the reshape of the result: it reduces to the region continued by
    the last reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape of the bias writes only its own result: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: the body only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition of the body's `scf.if`: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt (w : Fin cfg0.W) (i : grid0.Coords) : cfg0.idle w i = false := rfl

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x200x128 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0_0 : Memref sig .tc .vmem S10000x128 .bf16 := Memref.whole cc0_scratch0
/-- The scratch as a view: what it holds is stated through it. -/
abbrev VS0_0 : View sig .tc .vmem S10000x128 .bf16 := scM0_0.view
/-- One staging buffer of the output window, through which its contents are stated. -/
abbrev VO0_5 : View sig .tc .vmem S2x200x128 .f32 := (Memref.whole cc0_stg5_0 : Memref sig .tc .vmem S2x200x128 .f32).view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Frame

end
-- ==== Proof.FrameBits.RunA.lean ====
import proofs.«101691_g50706383897204_cont_8to1c4_451_17_alg».proof.Proof.FrameBits.Base

/-! # The body at the first grid point

At `t = 0` the branch is taken: the body first fills the scratch with the projected features
`x · W₂ᵀ` (whatever the scratch held), then reads it back and stores the two halves of the output block.
The run is found by symbolic execution; what it leaves in the output buffer and in the scratch are
lists of written pieces, the witnesses of the statement. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the branch is taken, on whole memrefs: the five inputs at their contents and back
    unchanged; the output buffer and the scratch at anything, each left with the pieces the stores wrote. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) :
    Σ' (L5 : List (View.Piece (Elt F) S2x200x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__sage_body i arg1 harg1 arg2 harg2 arg3 harg3 arg4 harg4 arg5 harg5 arg6 harg6 arg7 harg7) K } := by
  refine ⟨?_, ?_, fun E K => ?run⟩
  case run =>
    simp only [cc0__sage_body_eq_skeleton]; unfold cc0__sage_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.Kernel.Frame

end
-- ==== Proof.FrameBits.RunB.lean ====
import proofs.«101691_g50706383897204_cont_8to1c4_451_17_alg».proof.Proof.FrameBits.RunA

/-! # The body at a later grid point

At `t > 0` the branch is not taken: the body reads the scratch as the point before left it and stores
the two halves of the output block. The scratch is only read. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the branch is not taken, on whole memrefs: the five inputs and the scratch at their
    contents and back unchanged; the output buffer at anything, left with the pieces the stores wrote. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) :
    { L5 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__sage_body i arg1 harg1 arg2 harg2 arg3 harg3 arg4 harg4 arg5 harg5 arg6 harg6 arg7 harg7) K } := by
  refine ⟨?_, fun E K => ?run⟩
  case run =>
    simp only [cc0__sage_body_eq_skeleton]; unfold cc0__sage_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.Kernel.Frame

end
-- ==== Proof.FrameBits.Data.lean ====
import proofs.«101691_g50706383897204_cont_8to1c4_451_17_alg».proof.Proof.FrameBits.RunB

/-! # What the buffers hold point by point, and the region's proof data

After point `t` the output window's buffer holds the two stored halves of the block (they tile it), and
the scratch holds what point `0` stored — the projected features — unchanged by every later point.
The input windows' buffers hold their blocks. The two adjacency windows read ONE array: each holds half
of the share of it. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The two stores of the first point tile the output block. -/
theorem cover0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) (y : S2x200x128.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S1x200x128.size (by sl_kernel_rfl) y

/-- What the first point leaves in the output buffer: its pieces read back. -/
def out0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) : Vec F S2x200x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The one store of the first point fills the scratch. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) (y : S10000x128.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x128.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) : Vec F S10000x128 .bf16 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- The two stores of a later point tile the output block. -/
theorem cover0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) (y : S2x200x128.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S1x200x128.size (by sl_kernel_rfl) y

/-- What a later point leaves in the output buffer: its pieces read back. -/
def out0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) : Vec F S2x200x128 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-! ## What the output buffer and the scratch hold after each point -/

/-- After point `n`: the output buffer, then the scratch. The first point fills both; a later point fills the
    output from the scratch the point before left and leaves the scratch as it found it. -/
def outsAt0 (c : Dev nD) : (n : ℕ) → n < cfg0.N → Vec F S2x200x128 .f32 × Vec F S10000x128 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      (outsAt0 c n (Nat.lt_of_succ_lt hn)).2)

/-- At the first point. -/
theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch holds anything; afterwards what
    the point before left. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`. The two adjacency windows share their array: each holds half the
    share; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The shares: halves of the adjacency array for its two windows, whole elsewhere. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

end Cert.Kernel.Frame

end
-- ==== Proof.FrameBits.Body.lean ====
import proofs.«101691_g50706383897204_cont_8to1c4_451_17_alg».proof.Proof.FrameBits.Data

/-! # The body obligation of the region

At every grid point the body is handed the region invariant, the five input blocks in their buffers, the
output buffer at anything, and what the core owes; it returns the invariant at the next point, the inputs
unchanged and the output buffer at the block the point's two stores tile.

At the first point the invariant holds the scratch at anything and the body leaves it filled with the
projected features; at a later point the invariant holds the scratch at what the point before left, the
body only reads it, and it is handed on unchanged. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is handed at point `t`: the invariant before it, what the core owes, and each window's
    current buffer at what it holds before the point, the six windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d)))

/-- What it returns: the invariant after the point, what the core owes, and each window's current buffer at
    what it holds after the point. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 4800000 in
/-- The body at any point. The five input buffers hold their blocks and come back as they were; no window is
    idle, so each buffer is left at its contents after the point; the core owes the same before and after.
    At the first point the scratch is taken at anything and left at the one piece that fills it, and the
    output buffer is left at the two pieces that tile it. At a later point the scratch is taken at what the
    point before left and handed on unchanged, which is what the invariant after the point asks, and the
    output buffer is again left at the two pieces that tile it. A covering list of pieces reads back the
    same through any view and over any prior contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  by_cases hz : t.val = 0
  · -- the first point: the branch is taken
    rw [outsAt0_A m c t hz]
    unfold out0_A_5 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg]
    · isplitl [HS0]
      · unfold owns; iexists _; isplitr
        swap; · iexact HS0
        ipureintro
        exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t))
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t))
  · -- a later point: the branch is not taken, the scratch is only read
    rw [outsAt0_B m c t hz]
    unfold out0_B_5; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2)

/-- The library's body obligation, at every point: the six windows conjoined one by one. -/
theorem body_obligation (c : Dev nD) : BodyObligation (dats (F := F) m 0 c) (defs₀ (F := F)) Variants.none () Set.univ := fun t => by
  rw [bigSep_W0, bigSep_W0]; exact sound_body m c t

end Cert.Kernel.Frame

end
-- ==== Proof.FrameBits.Launch.lean ====
import proofs.«101691_g50706383897204_cont_8to1c4_451_17_alg».proof.Proof.FrameBits.Data

/-! # The launch: the region entered with one array behind two windows

The two adjacency windows read one array. At the region's entry the array's points-to is split into two
half shares, one per window; both windows only read, so at the exit both halves come back at the entry
contents. The output array, held whole, is then read by the reshape that follows the region. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the region and after the last reshape -/

/-- The buffer contents at the region's exit: the output array at what the write-backs left, everything else as at
    the entry. -/
def Wexit (c : Dev nD) : Valuation τ sig (Elt F) :=
  Function.update (V0 m c) (Proc.devRef .tc main_v1) ((dats m 0 c).arrAt 5 cfg0.N)

/-- The buffer contents at the end of @main: after the reshape of the output array. -/
def Wfin (c : Dev nD) (b : Ref sig .tc) : Buf (Elt F) ((c : Thread nD τ).loc b) :=
  StableHlo.after hostOps1 (Wexit m c) (Proc.devRef .tc b)

theorem Wexit_v1 (c : Dev nD) : Wexit m c (Proc.devRef .tc main_v1) = (dats m 0 c).arrAt 5 cfg0.N := by
  unfold Wexit; exact Function.update_self _ _ _

theorem Wexit_ne (c : Dev nD) (b : Ref sig .tc) (hb : b ≠ main_v1) : Wexit m c (Proc.devRef .tc b) = V m c b := by
  unfold Wexit; exact Function.update_of_ne (StableHlo.devRef_ne_of_ne hb) _ _

/-- The last reshape writes only its own result. -/
theorem Wfin_of_ne (c : Dev nD) (b : Ref sig .tc) (hb : b ≠ main_v2) : Wfin m c b = Wexit m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The entry: one array, two half shares -/

/-- The buffers behind the windows, listed: the adjacency array once. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_v0) ↦{fullShare} W main_v0)
          ∗ (((c : Thread nD τ).loc main_v1) ↦{fullShare} W main_v1)) := by
  unfold Pipeline.arrBufs
  exact Idealize.SL.BI.bigSep_eq_bigSepL_of_eq [main_arg1, main_arg0, main_arg2, main_v0, main_v1] (by decide) (by decide) _

/-- The pipeline's arrays at contents `G`, window by window, each whole at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare.left} G 0) ∗ (((c : Thread nD τ).loc main_arg1) ↦{fullShare.right} G 1)
          ∗ (((c : Thread nD τ).loc main_arg0) ↦{fullShare} G 2) ∗ (((c : Thread nD τ).loc main_arg2) ↦{fullShare} G 3)
          ∗ (((c : Thread nD τ).loc main_v0) ↦{fullShare} G 4) ∗ (((c : Thread nD τ).loc main_v1) ↦{fullShare} G 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rw [share0_0, share0_1, share0_2, share0_3, share0_4, share0_5]

/-- At the entry the buffers behind the windows make the pipeline's arrays: the adjacency array's points-to split
    in two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨H1, H0, H2, Hv0, Hv1⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [Hv0]; · iexact Hv0
  iexact Hv1

/-! ## The last reshape, run from the region's exit -/

/-- The two buffers the last reshape touches: the output array and the result. -/
abbrev Stail : Finset (DevRef τ sig) := {Proc.devRef .tc main_v1, Proc.devRef .tc main_v2}

theorem held_Stail (c : Dev nD) (W : Valuation τ sig (Elt F)) :
    (StableHlo.held (c : Thread nD τ) Stail W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held
  exact Idealize.SL.BI.bigSep_eq_bigSepL_of_eq [Proc.devRef .tc main_v1, Proc.devRef .tc main_v2] (by decide) (by decide) _

theorem tail_sub : ∀ ops ∈ ([hostOps1] : List (List (HloOp τ sig (Elt F)))), ∀ op ∈ ops, op.bufs ⊆ Stail := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The output array is not written by the last reshape. -/
theorem after_tail_v1 (c : Dev nD) :
    StableHlo.after ([hostOps1] : List (List (HloOp τ sig (Elt F)))).flatten (Wexit m c) (Proc.devRef .tc main_v1) = (dats m 0 c).arrAt 5 cfg0.N := by
  rw [StableHlo.after_of_forall_not_mem (b := Proc.devRef .tc main_v1) _ _ (List.forall_iff_forall_mem.mp (by
    simp only [hostOps1, List.flatten_cons, List.flatten_nil, List.append_nil, List.Forall, StableHlo.reshape_writes, Finset.mem_singleton]
    exact StableHlo.devRef_ne_of_ne (by decide)))]
  exact Wexit_v1 m c

theorem after_tail_v2 (c : Dev nD) :
    StableHlo.after ([hostOps1] : List (List (HloOp τ sig (Elt F)))).flatten (Wexit m c) (Proc.devRef .tc main_v2) = Wfin m c main_v2 := by
  unfold Wfin
  simp only [List.flatten_cons, List.flatten_nil, List.append_nil]

theorem Wfin_arg3 (c : Dev nD) : Wfin m c main_arg3 = V m c main_arg3 := by
  rw [Wfin_of_ne m c main_arg3 (by decide), Wexit_ne m c main_arg3 (by decide)]

/-- After the last reshape the two buffers it touches: the output array as it was, the result reshaped. -/
theorem held_after_tail (c : Dev nD) :
    (StableHlo.held (c : Thread nD τ) Stail (StableHlo.after ([hostOps1] : List (List (HloOp τ sig (Elt F)))).flatten (Wexit m c)) : sProp 𝕄)
      = iprop((((c : Thread nD τ).loc main_v1) ↦{fullShare} (dats m 0 c).arrAt 5 cfg0.N) ∗ (((c : Thread nD τ).loc main_v2) ↦{fullShare} Wfin m c main_v2)) := by
  rw [held_Stail, after_tail_v1, after_tail_v2]

theorem rest_arg3 (c : Dev nD) :
    ((((c : Thread nD τ).loc main_arg3) ↦{fullShare} V m c main_arg3 : sProp 𝕄)) = (((c : Thread nD τ).loc main_arg3) ↦{fullShare} Wfin m c main_arg3) := by
  rw [Wfin_arg3]

set_option backward.isDefEq.respectTransparency.types false in
/-- From the region's exit the last reshape runs on the output array and its result buffer; the arrays come back
    as they were, the result at the reshaped output. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Wfin m c)) -∗ Q' ⟨⟩)
        ∗ boundary (c : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ (Pipeline.chain [StableHlo.seq hostOps1]) Q' := by
  rw [Pipeline.unscopedRestP_none, Pipeline.unscopedRestP_none, unscopedRest0_eq, unscopedRest0_eq, arrays0_eq]
  iintro ⟨Hk, Hb, ⟨A0, A1, A2, A3, A4, A5⟩, ⟨H3, Hv2⟩⟩
  rw [show Pipeline.chain [StableHlo.seq (hostOps1 : List (HloOp τ sig (Elt F)))] = Pipeline.chain (List.map StableHlo.seq [hostOps1] ++ []) from rfl]
  iapply (Pipeline.wp_seqs_then (pcfgs (F := F)) defs₀ Variants.none c Stail [] [hostOps1] tail_sub tail_fresh (Wexit m c)) $$ [Hb A5 Hv2]
  · isplitl [Hb]; · iexact Hb
    rw [held_Stail, Wexit_v1, Wexit_ne m c main_v2 (by decide)]
    isplitl [A5]; · iexact A5
    iexact Hv2
  iintro ⟨Hb, Hh⟩
  rw [Pipeline.chain_nil, wp_pure]
  imodintro
  iapply Hk
  ihave Hh' := (Entails.of_eq (held_after_tail m c)) $$ Hh
  icases Hh' with ⟨A5, Hv2⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [H3]
  · iapply (Entails.of_eq (rest_arg3 m c)); iexact H3
  iexact Hv2

/-! ## The run -/

set_option backward.isDefEq.respectTransparency.types false in
/-- Every weakly fair execution of @main terminates, and every final state has each array of the pipeline at what the
    write-backs left and the other two buffers — the bias and the result — at their contents after the last reshape. -/
theorem run_main (hbody : ∀ c, Pipeline.BodyObligationLoose (dats (F := F) m 0 c) (defs₀ (F := F)) Variants.none () Set.univ) :
    θ_run defs (onTc (τ := τ) (main (F := F))) (s₀ m ρ) (Pipeline.FramePost cfgs (dats m) 0 (Wfin m)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) hbody
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m c) s')
      isplitl [HU] <;> iassumption)
    (hQ := fun s h c => ⟨(h c).1, Pipeline.rest_of_restP Pipeline.Prefetch.none spec0 (fun k => k.elim0) c (Wfin m c) s (fun k => k.elim0) (fun k => k.elim0) (h c).2.2⟩)

/-! ## The frame -/

/-- The argument arrays end as launched: the three the windows read by the library's reading of an input window's
    array, the bias because neither reshape writes it. -/
theorem frame_of_run
    (h : θ_run defs (onTc (τ := τ) (main (F := F))) (s₀ m ρ) (Pipeline.FramePost cfgs (dats m) 0 (Wfin m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans ((Wfin_arg3 m c).trans (V_main_arg3 m c))⟩) h

end Cert.Kernel.Frame

end
-- ==== Proof.FrameBits.Frame.lean ====
import proofs.«101691_g50706383897204_cont_8to1c4_451_17_alg».proof.Proof.FrameBits.Body
import proofs.«101691_g50706383897204_cont_8to1c4_451_17_alg».proof.Proof.FrameBits.Launch

/-! # The frame of the program

Every weakly fair execution of @main terminates and the four argument arrays end as launched: the
body obligation holds at every grid point, so the region runs from its entry to its exit; the three
arguments the windows read are inputs of the region and end as they entered; the bias is written by
neither reshape. -/

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (run_main m ρ fun c => (body_obligation m c).loose)

end Cert.Kernel.Frame

end
-- ==== Proof.FrameIdeal.Base.lean ====
import proofs.«101691_g50706383897204_cont_8to1c4_451_17_alg».proof.Proof.Gen.KernelIdeal.Launch
import proofs.«101691_g50706383897204_cont_8to1c4_451_17_alg».proof.Proof.Gen.KernelIdeal.Skeleton
import proofs.«101691_g50706383897204_cont_8to1c4_451_17_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # What the frame's pieces share

The program is one reshape of the bias, one pipelined region of 25 grid points, one reshape of the
result. The region has six windows: two row blocks of the adjacency matrix (the SAME array, rows
`200 t …` and `5000 + 200 t …`), the features, the weight and the reshaped bias (each one whole block,
fetched once), and the output block `[2, 200, 128]` written back at every point. A scratch buffer keeps
the projected features `x · W₂ᵀ` from the first point on.

Here: the buffers' contents when the region is entered, the blocks the input windows hold, the one
branch condition of the body (`t = 0`), and the names of the memrefs the body is called with. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The buffer contents when the region is entered: after the reshape of the bias. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the reshape, the region, then the reshape of the result: it reduces to the region continued by
    the last reshape, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The reshape of the bias writes only its own result: an argument array is found as launched. -/
theorem V_of_ne (c : Dev nD) (b : Ref sig .tc) (hb : b ≠ main_v0) : V m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.reshape_writes, Finset.mem_singleton]
    exact StableHlo.devRef_ne_of_ne hb))

theorem V_main_arg0 (c : Dev nD) : V m c main_arg0 = m ((c : Thread nD τ).loc main_arg0) := V_of_ne m c _ (by decide)
theorem V_main_arg1 (c : Dev nD) : V m c main_arg1 = m ((c : Thread nD τ).loc main_arg1) := V_of_ne m c _ (by decide)
theorem V_main_arg2 (c : Dev nD) : V m c main_arg2 = m ((c : Thread nD τ).loc main_arg2) := V_of_ne m c _ (by decide)
theorem V_main_arg3 (c : Dev nD) : V m c main_arg3 = m ((c : Thread nD τ).loc main_arg3) := V_of_ne m c _ (by decide)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's staging buffer holds its block at every point, fetched there or not: the body only reads it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's one branch -/

/-- The condition of the body's `scf.if`: the grid coordinate is zero. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- No window is ever idle. -/
theorem liveAt (w : Fin cfg0.W) (i : grid0.Coords) : cfg0.idle w i = false := rfl

/-! ## The memrefs the body is called with -/

abbrev ms0_0 (t : Fin cfg0.N) : Memref sig .tc .vmem S200x10000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S200x10000 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10000x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S2x200x128 .f32 := win0_5.stage (cfg0.slots t 5)
abbrev hs0_5 (t : Fin cfg0.N) : (ms0_5 t).IsWhole := hstage0_5 ((cfg0.slots t 5).cast nbuf0_5)
/-- The scratch operand: a whole scoped buffer of the kernel's own. -/
abbrev scM0_0 : Memref sig .tc .vmem S10000x128 .bf16 := Memref.whole cc0_scratch0
/-- The scratch as a view: what it holds is stated through it. -/
abbrev VS0_0 : View sig .tc .vmem S10000x128 .bf16 := scM0_0.view
/-- One staging buffer of the output window, through which its contents are stated. -/
abbrev VO0_5 : View sig .tc .vmem S2x200x128 .f32 := (Memref.whole cc0_stg5_0 : Memref sig .tc .vmem S2x200x128 .f32).view

/-- The region's class invariant with the scratch as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Frame

end
-- ==== Proof.FrameIdeal.RunA.lean ====
import proofs.«101691_g50706383897204_cont_8to1c4_451_17_alg».proof.Proof.FrameIdeal.Base

/-! # The body at the first grid point

At `t = 0` the branch is taken: the body first fills the scratch with the projected features
`x · W₂ᵀ` (whatever the scratch held), then reads it back and stores the two halves of the output block.
The run is found by symbolic execution; what it leaves in the output buffer and in the scratch are
lists of written pieces, the witnesses of the statement. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the branch is taken, on whole memrefs: the five inputs at their contents and back
    unchanged; the output buffer and the scratch at anything, each left with the pieces the stores wrote. -/
noncomputable def kernelRun0_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) :
    Σ' (L5 : List (View.Piece (Elt F) S2x200x128 .f32)), { LS0 : List (View.Piece (Elt F) S10000x128 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ (∃ f, arg7.view.loc (c : Thread nD τ) ↦[arg7.view.set]{fullShare} arg7.view.writes (Elt F) f LS0)) -∗ K ⟨⟩))
          ⊢ wp frame (wpE (defs₀ (F := F)) Variants.none c none) E (cc0__sage_body i arg1 harg1 arg2 harg2 arg3 harg3 arg4 harg4 arg5 harg5 arg6 harg6 arg7 harg7) K } := by
  refine ⟨?_, ?_, fun E K => ?run⟩
  case run =>
    simp only [cc0__sage_body_eq_skeleton]; unfold cc0__sage_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; iexact HS0

end Cert.KernelIdeal.Frame

end
-- ==== Proof.FrameIdeal.RunB.lean ====
import proofs.«101691_g50706383897204_cont_8to1c4_451_17_alg».proof.Proof.FrameIdeal.RunA

/-! # The body at a later grid point

At `t > 0` the branch is not taken: the body reads the scratch as the point before left it and stores
the two halves of the output block. The scratch is only read. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body at a point where the branch is not taken, on whole memrefs: the five inputs and the scratch at their
    contents and back unchanged; the output buffer at anything, left with the pieces the stores wrote. -/
noncomputable def kernelRun0_B (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) :
    { L5 : List (View.Piece (Elt F) S2x200x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ f, arg6.view.loc (c : Thread nD τ) ↦[arg6.view.set]{fullShare} arg6.view.writes (Elt F) f L5) ∗ owns (c : Thread nD τ) arg7 fullShare xs0) -∗ K ⟨⟩))
          ⊢ wp frame (wpE (defs₀ (F := F)) Variants.none c none) E (cc0__sage_body i arg1 harg1 arg2 harg2 arg3 harg3 arg4 harg4 arg5 harg5 arg6 harg6 arg7 harg7) K } := by
  refine ⟨?_, fun E K => ?run⟩
  case run =>
    simp only [cc0__sage_body_eq_skeleton]; unfold cc0__sage_body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg7.eq_unread hfs0
    sl_exec (disch := first | exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]; · iexists _; iexact H5
    iexists _; isplitr; · ipureintro; exact harg7.read_unread _
    iexact HS0

end Cert.KernelIdeal.Frame

end
-- ==== Proof.FrameIdeal.Data.lean ====
import proofs.«101691_g50706383897204_cont_8to1c4_451_17_alg».proof.Proof.FrameIdeal.RunB

/-! # What the buffers hold point by point, and the region's proof data

After point `t` the output window's buffer holds the two stored halves of the block (they tile it), and
the scratch holds what point `0` stored — the projected features — unchanged by every later point.
The input windows' buffers hold their blocks. The two adjacency windows read ONE array: each holds half
of the share of it. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The two stores of the first point tile the output block. -/
theorem cover0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) (y : S2x200x128.Idx) :
    ∃ pc ∈ (kernelRun0_A c i arg1 harg1 arg2 harg2 arg3 harg3 arg4 harg4 arg5 harg5 arg6 harg6 arg7 harg7 hc0 x0 x1 x2 x3 x4).1, y ∈ pc.1.set :=
  View.cover_of_tiledL (kernelRun0_A c i arg1 harg1 arg2 harg2 arg3 harg3 arg4 harg4 arg5 harg5 arg6 harg6 arg7 harg7 hc0 x0 x1 x2 x3 x4).1 S1x200x128.size (by sl_kernel_rfl) y

/-- What the first point leaves in the output buffer: its pieces read back. -/
def out0_A_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) : Vec F S2x200x128 .f32 :=
  VO0_5.read (Elt F) (VO0_5.writes (Elt F) VO0_5.junk (kernelRun0_A c i arg1 harg1 arg2 harg2 arg3 harg3 arg4 harg4 arg5 harg5 arg6 harg6 arg7 harg7 hc0 x0 x1 x2 x3 x4).1)

/-- The one store of the first point fills the scratch. -/
theorem scover0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) (y : S10000x128.Idx) :
    ∃ pc ∈ (kernelRun0_A c i arg1 harg1 arg2 harg2 arg3 harg3 arg4 harg4 arg5 harg5 arg6 harg6 arg7 harg7 hc0 x0 x1 x2 x3 x4).2.1, y ∈ pc.1.set :=
  View.cover_of_tiledL (kernelRun0_A c i arg1 harg1 arg2 harg2 arg3 harg3 arg4 harg4 arg5 harg5 arg6 harg6 arg7 harg7 hc0 x0 x1 x2 x3 x4).2.1 S10000x128.size (by sl_kernel_rfl) y

/-- What the first point leaves in the scratch: its piece read back. -/
def sout0_A_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i)
    (x0 : Vec F S200x10000 .f32) (x1 : Vec F S200x10000 .f32) (x2 : Vec F S10000x128 .f32) (x3 : Vec F S128x256 .f32) (x4 : Vec F S1x128 .f32) : Vec F S10000x128 .bf16 :=
  VS0_0.read (Elt F) (VS0_0.writes (Elt F) VS0_0.junk (kernelRun0_A c i arg1 harg1 arg2 harg2 arg3 harg3 arg4 harg4 arg5 harg5 arg6 harg6 arg7 harg7 hc0 x0 x1 x2 x3 x4).2.1)

/-- The two stores of a later point tile the output block. -/
theorem cover0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) (y : S2x200x128.Idx) :
    ∃ pc ∈ (kernelRun0_B c i arg1 harg1 arg2 harg2 arg3 harg3 arg4 harg4 arg5 harg5 arg6 harg6 arg7 harg7 hc0 x0 x1 x2 x3 x4 xs0).1, y ∈ pc.1.set :=
  View.cover_of_tiledL (kernelRun0_B c i arg1 harg1 arg2 harg2 arg3 harg3 arg4 harg4 arg5 harg5 arg6 harg6 arg7 harg7 hc0 x0 x1 x2 x3 x4 xs0).1 S1x200x128.size (by sl_kernel_rfl) y

/-- What a later point leaves in the output buffer: its pieces read back. -/
def out0_B_5 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i)
    (x0 : Vec F S200x10000 .f32) (x1 : Vec F S200x10000 .f32) (x2 : Vec F S10000x128 .f32) (x3 : Vec F S128x256 .f32) (x4 : Vec F S1x128 .f32) (xs0 : Vec F S10000x128 .bf16) : Vec F S2x200x128 .f32 :=
  VO0_5.read (Elt F) (VO0_5.writes (Elt F) VO0_5.junk (kernelRun0_B c i arg1 harg1 arg2 harg2 arg3 harg3 arg4 harg4 arg5 harg5 arg6 harg6 arg7 harg7 hc0 x0 x1 x2 x3 x4 xs0).1)

/-! ## What the output buffer and the scratch hold after each point -/

/-- After point `n`: the output buffer, then the scratch. The first point fills both; a later point fills the
    output from the scratch the point before left and leaves the scratch as it found it. -/
def outsAt0 (c : Dev nD) : (n : ℕ) → n < cfg0.N → Vec F S2x200x128 .f32 × Vec F S10000x128 .bf16
  | 0, hn => (out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (iblk m c 0 ⟨0, hn⟩) (iblk m c 1 ⟨0, hn⟩) (iblk m c 2 ⟨0, hn⟩) (iblk m c 3 ⟨0, hn⟩) (iblk m c 4 ⟨0, hn⟩))
  | n + 1, hn => (out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) scM0_0 (Memref.isWhole_whole _) (fun h => Nat.succ_ne_zero n ((hcond0_0 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (outsAt0 c n (Nat.lt_of_succ_lt hn)).2,
      (outsAt0 c n (Nat.lt_of_succ_lt hn)).2)

/-- At the first point. -/
theorem outsAt0_A (c : Dev nD) (t : Fin cfg0.N) (h0 : t.val = 0) :
    outsAt0 m c t.val t.isLt = (out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (iblk m c 0 t) (iblk m c 1 t) (iblk m c 2 t) (iblk m c 3 t) (iblk m c 4 t)) := by
  obtain ⟨n, hn⟩ := t
  cases n with
  | zero => exact rfl
  | succ n => exact absurd h0 (Nat.succ_ne_zero n)

/-- At a later point: over what the point before left. -/
theorem outsAt0_B (c : Dev nD) (t : Fin cfg0.N) (h0 : ¬t.val = 0) :
    outsAt0 m c t.val t.isLt = (out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2,
      (outsAt0 m c (t.val - 1) (Nat.lt_of_le_of_lt (Nat.sub_le _ _) t.isLt)).2) := by
  obtain ⟨n, hn⟩ := t
  cases n with
  | zero => exact absurd rfl h0
  | succ n => exact rfl

/-- The region invariant before position `n`: before the first point the scratch holds anything; afterwards what
    the point before left. The generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The proof data of the pipeline on core `c`. The two adjacency windows share their array: each holds half the
    share; every other input is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- The shares: halves of the adjacency array for its two windows, whole elsewhere. -/
theorem share0_0 (c : Dev nD) : (dats m 0 c).share 0 = fullShare.left := rfl
theorem share0_1 (c : Dev nD) : (dats m 0 c).share 1 = fullShare.right := rfl
theorem share0_2 (c : Dev nD) : (dats m 0 c).share 2 = fullShare := rfl
theorem share0_3 (c : Dev nD) : (dats m 0 c).share 3 = fullShare := rfl
theorem share0_4 (c : Dev nD) : (dats m 0 c).share 4 = fullShare := rfl
theorem share0_5 (c : Dev nD) : (dats m 0 c).share 5 = fullShare := rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class invariant back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 25 := N_0; omega)

end Cert.KernelIdeal.Frame

end
-- ==== Proof.FrameIdeal.Body.lean ====
import proofs.«101691_g50706383897204_cont_8to1c4_451_17_alg».proof.Proof.FrameIdeal.Data

/-! # The body obligation of the region

At every grid point the body is handed the region invariant, the five input blocks in their buffers, the
output buffer at anything, and what the core owes; it returns the invariant at the next point, the inputs
unchanged and the output buffer at the block the point's two stores tile.

At the first point the invariant holds the scratch at anything and the body leaves it filled with the
projected features; at a later point the invariant holds the scratch at what the point before left, the
body only reads it, and it is handed on unchanged. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body obligation, at a generic point -/

/-- What the body is handed at point `t`: the invariant before it, what the core owes, and each window's
    current buffer at what it holds before the point, the six windows one by one. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d)) ∗ (∃ d, owns (c : Thread nD τ) (ms0_1 t) fullShare ((dats m 0 c).before 1 t d))
    ∗ (∃ d, owns (c : Thread nD τ) (ms0_2 t) fullShare ((dats m 0 c).before 2 t d)) ∗ (∃ d, owns (c : Thread nD τ) (ms0_3 t) fullShare ((dats m 0 c).before 3 t d))
    ∗ (∃ d, owns (c : Thread nD τ) (ms0_4 t) fullShare ((dats m 0 c).before 4 t d)) ∗ (∃ d, owns (c : Thread nD τ) (ms0_5 t) fullShare ((dats m 0 c).before 5 t d)))

/-- What it returns: the invariant after the point, what the core owes, and each window's current buffer at
    what it holds after the point. -/
def bodyPost (c : Dev nD) (t : Fin cfg0.N) : sProp 𝕄 :=
  iprop((dats m 0 c).Φ t.succ ∗ (dats m 0 c).owesAt () t.succ ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t)

set_option maxHeartbeats 4800000 in
/-- The body at any point. The five input buffers hold their blocks and come back as they were; no window is
    idle, so each buffer is left at its contents after the point; the core owes the same before and after.
    At the first point the scratch is taken at anything and left at the one piece that fills it, and the
    output buffer is left at the two pieces that tile it. At a later point the scratch is taken at what the
    point before left and handed on unchanged, which is what the invariant after the point asks, and the
    output buffer is again left at the two pieces that tile it. A covering list of pieces reads back the
    same through any view and over any prior contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  by_cases hz : t.val = 0
  · -- the first point: the branch is taken
    rw [outsAt0_A m c t hz]
    unfold out0_A_5 sout0_A_0; (try dsimp only)
    rw [PhiS_castSucc m c t, PhiS_zero m c _ _ hz, PhiA0_eq]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t)).2.2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, ⟨%es0, HS0⟩⟩
    isplitl [HS0 Hg]
    · isplitl [HS0]
      · unfold owns; iexists _; isplitr
        swap; · iexact HS0
        ipureintro
        exact View.read_writes_of_cover _ _ _ _ _ (scover0_A_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t))
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_A_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr hz) (iblk m c 0 t) (iblk m c 1 t) (iblk m c 2 t) (iblk m c 3 t) (iblk m c 4 t))
  · -- a later point: the branch is not taken, the scratch is only read
    rw [outsAt0_B m c t hz]
    unfold out0_B_5; (try dsimp only)
    rw [PhiS_castSucc m c t, PhiS_pos m c _ _ hz]
    iintro ⟨⟨HS0, Hg⟩, Ho, ⟨%d0, H0⟩, ⟨%d1, H1⟩, ⟨%d2, H2⟩, ⟨%d3, H3⟩, ⟨%d4, H4⟩, ⟨%d5, H5⟩⟩
    iapply ((kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2).2 Set.univ _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    iintro ⟨H0, H1, H2, H3, H4, ⟨%e5, H5⟩, HS0⟩
    isplitl [HS0 Hg]
    · isplitl [HS0]; · iexact HS0
      iexact Hg
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    exact View.read_writes_of_cover _ _ _ _ _ (cover0_B_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => hz ((hcond0_0 t).mp h)) (iblk m c 0 t) (iblk m c 1 t) (iblk m c 2 t) (iblk m c 3 t) (iblk m c 4 t) (outsAt0 m c (t.val - 1) (Nat.lt_of_le_of_lt (Nat.sub_le _ _) t.isLt)).2)

/-- The library's body obligation, at every point: the six windows conjoined one by one. -/
theorem body_obligation (c : Dev nD) : BodyObligation (dats (F := F) m 0 c) (defs₀ (F := F)) Variants.none () Set.univ := fun t => by
  rw [bigSep_W0, bigSep_W0]; exact sound_body m c t

end Cert.KernelIdeal.Frame

end
-- ==== Proof.FrameIdeal.Launch.lean ====
import proofs.«101691_g50706383897204_cont_8to1c4_451_17_alg».proof.Proof.FrameIdeal.Data

/-! # The launch: the region entered with one array behind two windows

The two adjacency windows read one array. At the region's entry the array's points-to is split into two
half shares, one per window; both windows only read, so at the exit both halves come back at the entry
contents. The output array, held whole, is then read by the reshape that follows the region. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers after the region and after the last reshape -/

/-- The buffer contents at the region's exit: the output array at what the write-backs left, everything else as at
    the entry. -/
def Wexit (c : Dev nD) : Valuation τ sig (Elt F) :=
  Function.update (V0 m c) (Proc.devRef .tc main_v1) ((dats m 0 c).arrAt 5 cfg0.N)

/-- The buffer contents at the end of @main: after the reshape of the output array. -/
def Wfin (c : Dev nD) (b : Ref sig .tc) : Buf (Elt F) ((c : Thread nD τ).loc b) :=
  StableHlo.after hostOps1 (Wexit m c) (Proc.devRef .tc b)

theorem Wexit_v1 (c : Dev nD) : Wexit m c (Proc.devRef .tc main_v1) = (dats m 0 c).arrAt 5 cfg0.N := by
  unfold Wexit; exact Function.update_self _ _ _

theorem Wexit_ne (c : Dev nD) (b : Ref sig .tc) (hb : b ≠ main_v1) : Wexit m c (Proc.devRef .tc b) = V m c b := by
  unfold Wexit; exact Function.update_of_ne (StableHlo.devRef_ne_of_ne hb) _ _

/-- The last reshape writes only its own result. -/
theorem Wfin_of_ne (c : Dev nD) (b : Ref sig .tc) (hb : b ≠ main_v2) : Wfin m c b = Wexit m c (Proc.devRef .tc b) :=
  StableHlo.after_of_forall_not_mem (b := Proc.devRef .tc b) _ _ (List.forall_iff_forall_mem.mp (by
    simp only [hostOps1, List.Forall, StableHlo.reshape_writes, Finset.mem_singleton]
    exact StableHlo.devRef_ne_of_ne hb))

/-! ## The entry: one array, two half shares -/

/-- The buffers behind the windows, listed: the adjacency array once. -/
theorem arrBufs0_eq (c : Dev nD) (W : (b : Ref sig .tc) → Buf (Elt F) ((c : Thread nD τ).loc b)) :
    (Pipeline.arrBufs (Ix := Unit) (Name := ℕ) (U := UR sig nD τ) (Lvl := ℕ) spec0 c W : sProp 𝕄)
      = iprop((((c : Thread nD τ).loc main_arg1) ↦{fullShare} W main_arg1) ∗ (((c : Thread nD τ).loc main_arg0) ↦{fullShare} W main_arg0)
          ∗ (((c : Thread nD τ).loc main_arg2) ↦{fullShare} W main_arg2) ∗ (((c : Thread nD τ).loc main_v0) ↦{fullShare} W main_v0)
          ∗ (((c : Thread nD τ).loc main_v1) ↦{fullShare} W main_v1)) := by
  unfold Pipeline.arrBufs
  exact Idealize.SL.BI.bigSep_eq_bigSepL_of_eq [main_arg1, main_arg0, main_arg2, main_v0, main_v1] (by decide) (by decide) _

/-- The pipeline's arrays at contents `G`, window by window, each whole at its share. -/
theorem arrays0_eq (c : Dev nD) (G : (w : Fin cfg0.W) → Buf (Elt F) ((cfg0.win w).arr.view.loc (c : Thread nD τ))) :
    ((dats m 0 c).arrays G : sProp 𝕄)
      = iprop((((c : Thread nD τ).loc main_arg1) ↦{fullShare.left} G 0) ∗ (((c : Thread nD τ).loc main_arg1) ↦{fullShare.right} G 1)
          ∗ (((c : Thread nD τ).loc main_arg0) ↦{fullShare} G 2) ∗ (((c : Thread nD τ).loc main_arg2) ↦{fullShare} G 3)
          ∗ (((c : Thread nD τ).loc main_v0) ↦{fullShare} G 4) ∗ (((c : Thread nD τ).loc main_v1) ↦{fullShare} G 5)) := by
  unfold Dat.arrays
  rw [bigSep_W0]
  rw [(arr_whole0 0).set_eq_univ, (arr_whole0 2).set_eq_univ, (arr_whole0 3).set_eq_univ, (arr_whole0 4).set_eq_univ, (arr_whole0 5).set_eq_univ]
  rw [share0_0, share0_1, share0_2, share0_3, share0_4, share0_5]

/-- At the entry the buffers behind the windows make the pipeline's arrays: the adjacency array's points-to split
    in two halves. -/
theorem hsplit (c : Dev nD) :
    (Pipeline.arrBufs (Ix := Unit) (Name := ℕ) (U := UR sig nD τ) (Lvl := ℕ) spec0 c (V m c) : sProp 𝕄) ⊢ (dats m 0 c).arrays ((dats m 0 c).arrAt · 0) := by
  rw [arrBufs0_eq, arrays0_eq]
  iintro ⟨H1, H0, H2, Hv0, Hv1⟩
  ihave H1' := (pointsTo_share (PosShare.mem_left_op_right fullShare)).1 $$ H1
  icases H1' with ⟨H1l, H1r⟩
  isplitl [H1l]; · iexact H1l
  isplitl [H1r]; · iexact H1r
  isplitl [H0]; · iexact H0
  isplitl [H2]; · iexact H2
  isplitl [Hv0]; · iexact Hv0
  iexact Hv1

/-! ## The last reshape, run from the region's exit -/

/-- The two buffers the last reshape touches: the output array and the result. -/
abbrev Stail : Finset (DevRef τ sig) := {Proc.devRef .tc main_v1, Proc.devRef .tc main_v2}

theorem held_Stail (c : Dev nD) (W : Valuation τ sig (Elt F)) :
    (StableHlo.held (c : Thread nD τ) Stail W : sProp 𝕄)
      = iprop((((c : Thread nD τ).loc main_v1) ↦{fullShare} W (Proc.devRef .tc main_v1)) ∗ (((c : Thread nD τ).loc main_v2) ↦{fullShare} W (Proc.devRef .tc main_v2))) := by
  unfold StableHlo.held
  exact Idealize.SL.BI.bigSep_eq_bigSepL_of_eq [Proc.devRef .tc main_v1, Proc.devRef .tc main_v2] (by decide) (by decide) _

theorem tail_sub : ∀ ops ∈ ([hostOps1] : List (List (HloOp τ sig (Elt F)))), ∀ op ∈ ops, op.bufs ⊆ Stail := by
  intro ops hops op hop
  simp only [List.mem_cons, List.mem_nil_iff, or_false] at hops
  subst hops
  simp only [hostOps1, List.mem_cons, List.mem_nil_iff, or_false] at hop
  subst hop
  rw [StableHlo.reshape_bufs]

theorem tail_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- The output array is not written by the last reshape. -/
theorem after_tail_v1 (c : Dev nD) :
    StableHlo.after ([hostOps1] : List (List (HloOp τ sig (Elt F)))).flatten (Wexit m c) (Proc.devRef .tc main_v1) = (dats m 0 c).arrAt 5 cfg0.N := by
  rw [StableHlo.after_of_forall_not_mem (b := Proc.devRef .tc main_v1) _ _ (List.forall_iff_forall_mem.mp (by
    simp only [hostOps1, List.flatten_cons, List.flatten_nil, List.append_nil, List.Forall, StableHlo.reshape_writes, Finset.mem_singleton]
    exact StableHlo.devRef_ne_of_ne (by decide)))]
  exact Wexit_v1 m c

theorem after_tail_v2 (c : Dev nD) :
    StableHlo.after ([hostOps1] : List (List (HloOp τ sig (Elt F)))).flatten (Wexit m c) (Proc.devRef .tc main_v2) = Wfin m c main_v2 := by
  unfold Wfin
  simp only [List.flatten_cons, List.flatten_nil, List.append_nil]

theorem Wfin_arg3 (c : Dev nD) : Wfin m c main_arg3 = V m c main_arg3 := by
  rw [Wfin_of_ne m c main_arg3 (by decide), Wexit_ne m c main_arg3 (by decide)]

/-- After the last reshape the two buffers it touches: the output array as it was, the result reshaped. -/
theorem held_after_tail (c : Dev nD) :
    (StableHlo.held (c : Thread nD τ) Stail (StableHlo.after ([hostOps1] : List (List (HloOp τ sig (Elt F)))).flatten (Wexit m c)) : sProp 𝕄)
      = iprop((((c : Thread nD τ).loc main_v1) ↦{fullShare} (dats m 0 c).arrAt 5 cfg0.N) ∗ (((c : Thread nD τ).loc main_v2) ↦{fullShare} Wfin m c main_v2)) := by
  rw [held_Stail, after_tail_v1, after_tail_v2]

theorem rest_arg3 (c : Dev nD) :
    ((((c : Thread nD τ).loc main_arg3) ↦{fullShare} V m c main_arg3 : sProp 𝕄)) = (((c : Thread nD τ).loc main_arg3) ↦{fullShare} Wfin m c main_arg3) := by
  rw [Wfin_arg3]

set_option backward.isDefEq.respectTransparency.types false in
/-- From the region's exit the last reshape runs on the output array and its result buffer; the arrays come back
    as they were, the result at the reshaped output. -/
theorem htail (c : Dev nD) (Q' : PUnit → sProp 𝕄) :
    iprop((iprop((dats m 0 c).arrays ((dats m 0 c).arrAt · cfg0.N) ∗ Pipeline.unscopedRestP (Ix := Unit) (Name := ℕ) (U := UR sig nD τ) (Lvl := ℕ) Pipeline.Prefetch.none spec0 c (Wfin m c)) -∗ Q' ⟨⟩)
        ∗ boundary (c : Thread nD τ) ∗ (dats m 0 c).arrays ((dats m 0 c).arrAt · cfg0.N) ∗ Pipeline.unscopedRestP (Ix := Unit) (Name := ℕ) (U := UR sig nD τ) (Lvl := ℕ) Pipeline.Prefetch.none spec0 c (V m c))
      ⊢ wp frame (wpE (Pipeline.defs (pcfgs (F := F)) defs₀) (Variants.lift Variants.none) (c : Thread nD τ) none) Set.univ (Pipeline.chain [StableHlo.seq hostOps1]) Q' := by
  rw [Pipeline.unscopedRestP_none, Pipeline.unscopedRestP_none, unscopedRest0_eq, unscopedRest0_eq, arrays0_eq]
  iintro ⟨Hk, Hb, ⟨A0, A1, A2, A3, A4, A5⟩, ⟨H3, Hv2⟩⟩
  rw [show Pipeline.chain [StableHlo.seq (hostOps1 : List (HloOp τ sig (Elt F)))] = Pipeline.chain (List.map StableHlo.seq [hostOps1] ++ []) from rfl]
  iapply (Pipeline.wp_seqs_then (pcfgs (F := F)) defs₀ Variants.none c Stail [] [hostOps1] tail_sub tail_fresh (Wexit m c)) $$ [Hb A5 Hv2]
  · isplitl [Hb]; · iexact Hb
    rw [held_Stail, Wexit_v1, Wexit_ne m c main_v2 (by decide)]
    isplitl [A5]; · iexact A5
    iexact Hv2
  iintro ⟨Hb, Hh⟩
  rw [Pipeline.chain_nil, wp_pure]
  imodintro
  iapply Hk
  ihave Hh' := (Entails.of_eq (held_after_tail m c)) $$ Hh
  icases Hh' with ⟨A5, Hv2⟩
  isplitl [A0 A1 A2 A3 A4 A5]
  · isplitl [A0]; · iexact A0
    isplitl [A1]; · iexact A1
    isplitl [A2]; · iexact A2
    isplitl [A3]; · iexact A3
    isplitl [A4]; · iexact A4
    iexact A5
  isplitl [H3]
  · iapply (Entails.of_eq (rest_arg3 m c)); iexact H3
  iexact Hv2

/-! ## The run -/

set_option backward.isDefEq.respectTransparency.types false in
/-- Every weakly fair execution of @main terminates, and every final state has each array of the pipeline at what the
    write-backs left and the other two buffers — the bias and the result — at their contents after the last reshape. -/
theorem run_main (hbody : ∀ c, Pipeline.BodyObligationLoose (dats (F := F) m 0 c) (defs₀ (F := F)) Variants.none () Set.univ) :
    θ_run defs (onTc (τ := τ) (main (F := F))) (s₀ m ρ) (Pipeline.FramePost cfgs (dats m) 0 (Wfin m)) := by
  classical
  exact Pipeline.θ_run_region_pf_tail (pcfgs (F := F)) (fun q => (cfgs q).toPCfg_adm) (dats m) () cellOf_inj (0 : Fin 1) winFacts₀0
    (Pipeline.OwnSemFacts.none spec0) (Pipeline.PreFacts.none _) emb₁ defs₀ Variants.none m ρ main
    (fun _ => Pipeline.chain [StableHlo.seq hostOps1]) hbody
    block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := hsplit m) (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (Wfin m c))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin m c))
    (hout := fun c => (hout m c).trans (by
      rw [Pipeline.ownSems0_none]; unfold Pipeline.ΦA
      iintro ⟨Hr, Hp⟩
      isplitl [Hp]; · iexact Hp
      isplitr; · iempintro
      iexact Hr))
    (htail := htail m)
    (QY := fun c s => ∀ b ∈ Pipeline.restRefsP sig Pipeline.Prefetch.none spec0, s.mem ((c.tc : Thread nD τ).loc b) = Wfin m c b)
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (Wfin m c) s')
      isplitl [HU] <;> iassumption)
    (hQ := fun s h c => ⟨(h c).1, Pipeline.rest_of_restP Pipeline.Prefetch.none spec0 (fun k => k.elim0) c (Wfin m c) s (fun k => k.elim0) (fun k => k.elim0) (h c).2.2⟩)

/-! ## The frame -/

/-- The argument arrays end as launched: the three the windows read by the library's reading of an input window's
    array, the bias because neither reshape writes it. -/
theorem frame_of_run
    (h : θ_run defs (onTc (τ := τ) (main (F := F))) (s₀ m ρ) (Pipeline.FramePost cfgs (dats m) 0 (Wfin m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
    ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans ((Wfin_arg3 m c).trans (V_main_arg3 m c))⟩) h

end Cert.KernelIdeal.Frame

end
-- ==== Proof.FrameIdeal.Frame.lean ====
import proofs.«101691_g50706383897204_cont_8to1c4_451_17_alg».proof.Proof.FrameIdeal.Body
import proofs.«101691_g50706383897204_cont_8to1c4_451_17_alg».proof.Proof.FrameIdeal.Launch

/-! # The frame of the program

Every weakly fair execution of @main terminates and the four argument arrays end as launched: the
body obligation holds at every grid point, so the region runs from its entry to its exit; the three
arguments the windows read are inputs of the region and end as they entered; the bias is written by
neither reshape. -/

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of_run m ρ (run_main m ρ fun c => (body_obligation m c).loose)

end Cert.KernelIdeal.Frame

end
-- ==== Proof.Spec.lean ====
import Idealize.ShloMosaic.PureOps.Ideal
import Idealize.ShloMosaic.Lib.ValueIdx
import Mathlib.Data.EReal.Basic
import Mathlib.Algebra.BigOperators.Group.Finset.Basic
import Mathlib.Algebra.BigOperators.Fin
import Mathlib.Algebra.BigOperators.Ring.Finset

/-! # The layer as one function of its arguments

A dense GraphSAGE layer over `N = 10000` nodes with `128` input and `128` output features:
`hidden = [x | adj · x] · Wᵀ + b`, the weight `W : 128 × 256` read as two halves `W = [W₁ | W₂]`.

Two arrangements of the same number, index by index over the extended reals:

* `outK` — the self term first, the neighbour term reassociated:
  `(x · W₁ᵀ + b) + adj · (x · W₂ᵀ)`;
* `outR` — the concatenation form: `[x | adj · x] · Wᵀ + b`.

They agree when `x`, `adj` and `W` hold real numbers: the law is associativity of the matrix
product, i.e. the exchange of the two finite sums together with distributivity, which fails at
infinities and is why finiteness is needed. `b` may be anything. -/

noncomputable section

namespace Cert.Spec

open Idealize.ShloMosaic ValueIdx

abbrev SX : Shape := ⟨2, ![10000, 128]⟩
abbrev SA : Shape := ⟨2, ![10000, 10000]⟩
abbrev SW : Shape := ⟨2, ![128, 256]⟩
abbrev SB : Shape := ⟨1, ![128]⟩

/-- Column `k` of the first half `W₁` of the weight. -/
abbrev lo (k : Fin 128) : Fin 256 := ⟨k.val, by omega⟩
/-- Column `k` of the second half `W₂` of the weight. -/
abbrev hi (k : Fin 128) : Fin 256 := ⟨128 + k.val, by omega⟩

/-- The projected features `y = x · W₂ᵀ`: node `n`, output feature `o`. -/
def proj (x : SX.Idx → EReal) (W : SW.Idx → EReal) (n : Fin 10000) (o : Fin 128) : EReal :=
  ∑ k : Fin 128, x (ix2 n k) * W (ix2 o (hi k))

/-- The self term `x · W₁ᵀ + b`: node `r`, output feature `o`. -/
def selfTerm (x : SX.Idx → EReal) (W : SW.Idx → EReal) (b : SB.Idx → EReal) (r : Fin 10000) (o : Fin 128) : EReal :=
  (∑ k : Fin 128, x (ix2 r k) * W (ix2 o (lo k))) + b (ix1 o)

/-- The reassociated layer: `(x · W₁ᵀ + b) + adj · (x · W₂ᵀ)`. -/
def outK (x : SX.Idx → EReal) (adj : SA.Idx → EReal) (W : SW.Idx → EReal) (b : SB.Idx → EReal) : SX.Idx → EReal :=
  fun i => selfTerm x W b (i 0) (i 1) + ∑ n : Fin 10000, adj (ix2 (i 0) n) * proj x W n (i 1)

/-- The aggregated neighbour features `adj · x`: node `r`, input feature `k`. -/
def support (x : SX.Idx → EReal) (adj : SA.Idx → EReal) (r : Fin 10000) (k : Fin 128) : EReal :=
  ∑ n : Fin 10000, adj (ix2 r n) * x (ix2 n k)

/-- Row `r` of the concatenation `[x | adj · x]` at column `j`. -/
def cat (x : SX.Idx → EReal) (adj : SA.Idx → EReal) (r : Fin 10000) (j : Fin 256) : EReal :=
  if h : j.val < 128 then x (ix2 r ⟨j.val, h⟩) else support x adj r ⟨j.val - 128, by omega⟩

/-- The concatenation form of the layer: `[x | adj · x] · Wᵀ + b`. -/
def outR (x : SX.Idx → EReal) (adj : SA.Idx → EReal) (W : SW.Idx → EReal) (b : SB.Idx → EReal) : SX.Idx → EReal :=
  fun i => (∑ j : Fin 256, cat x adj (i 0) j * W (ix2 (i 1) j)) + b (ix1 (i 1))

/-- The coercion `ℝ → EReal` commutes with finite sums (additivity of the coercion, by induction
on the index set). -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum over the `256` columns is the sum over the first half plus the sum over the second half. -/
theorem sum_halves (g : Fin 256 → EReal) :
    ∑ j : Fin 256, g j = (∑ k : Fin 128, g (lo k)) + ∑ k : Fin 128, g (hi k) :=
  Fin.sum_univ_add (a := 128) (b := 128) g

/-- The concatenation at a column of the first half is the node's own feature. -/
theorem cat_lo (x : SX.Idx → EReal) (adj : SA.Idx → EReal) (r : Fin 10000) (k : Fin 128) :
    cat x adj r (lo k) = x (ix2 r k) := by
  unfold cat
  rw [dif_pos (show (lo k).val < 128 from k.isLt)]

/-- The concatenation at a column of the second half is the aggregated neighbour feature. -/
theorem cat_hi (x : SX.Idx → EReal) (adj : SA.Idx → EReal) (r : Fin 10000) (k : Fin 128) :
    cat x adj r (hi k) = support x adj r k := by
  unfold cat
  rw [dif_neg (show ¬ (hi k).val < 128 by show ¬ (128 + k.val < 128); omega)]
  congr 1
  ext
  show 128 + k.val - 128 = k.val
  omega

/-- Associativity of the matrix product on real data: `adj · (x · W₂ᵀ) = (adj · x) · W₂ᵀ`, entry
`(r, o)`. Both sides are coercions of real sums; in `ℝ` distributivity puts both in the form of a
double sum of triple products and the two finite sums are exchanged. -/
theorem assoc_real (xr : SX.Idx → ℝ) (ar : SA.Idx → ℝ) (wr : SW.Idx → ℝ) (r : Fin 10000) (o : Fin 128) :
    ∑ n : Fin 10000, (ar (ix2 r n) : EReal) *
        ∑ k : Fin 128, (xr (ix2 n k) : EReal) * (wr (ix2 o (hi k)) : EReal)
      = ∑ k : Fin 128, (∑ n : Fin 10000, (ar (ix2 r n) : EReal) * (xr (ix2 n k) : EReal)) *
          (wr (ix2 o (hi k)) : EReal) := by
  calc ∑ n : Fin 10000, (ar (ix2 r n) : EReal) *
          ∑ k : Fin 128, (xr (ix2 n k) : EReal) * (wr (ix2 o (hi k)) : EReal)
      = ∑ n : Fin 10000, ((ar (ix2 r n) * ∑ k : Fin 128, xr (ix2 n k) * wr (ix2 o (hi k)) : ℝ) : EReal) := by
        refine Finset.sum_congr rfl fun n _ => ?_
        rw [EReal.coe_mul, coe_sum]
        simp only [EReal.coe_mul]
    _ = ((∑ n : Fin 10000, ar (ix2 r n) * ∑ k : Fin 128, xr (ix2 n k) * wr (ix2 o (hi k)) : ℝ) : EReal) :=
        (coe_sum _ _).symm
    _ = ((∑ k : Fin 128, (∑ n : Fin 10000, ar (ix2 r n) * xr (ix2 n k)) * wr (ix2 o (hi k)) : ℝ) : EReal) := by
        congr 1
        simp only [Finset.mul_sum, Finset.sum_mul]
        rw [Finset.sum_comm]
        simp only [mul_assoc]
    _ = ∑ k : Fin 128, (∑ n : Fin 10000, (ar (ix2 r n) : EReal) * (xr (ix2 n k) : EReal)) *
          (wr (ix2 o (hi k)) : EReal) := by
        rw [coe_sum]
        refine Finset.sum_congr rfl fun k _ => ?_
        rw [EReal.coe_mul, coe_sum]
        simp only [EReal.coe_mul]

/-- Entry `(r, o)` of the layer: the reassociated arrangement and the concatenation form are the
same extended real when `x`, `adj` and `W` hold real numbers. -/
theorem entry_eq (x : SX.Idx → EReal) (adj : SA.Idx → EReal) (W : SW.Idx → EReal) (b : SB.Idx → EReal)
    (hx : ∀ i, ∃ r : ℝ, x i = (r : EReal)) (hadj : ∀ i, ∃ r : ℝ, adj i = (r : EReal))
    (hW : ∀ i, ∃ r : ℝ, W i = (r : EReal)) (r : Fin 10000) (o : Fin 128) :
    selfTerm x W b r o + ∑ n : Fin 10000, adj (ix2 r n) * proj x W n o
      = (∑ j : Fin 256, cat x adj r j * W (ix2 o j)) + b (ix1 o) := by
  choose xr hxr using hx
  choose ar har using hadj
  choose wr hwr using hW
  -- the neighbour term, reassociated: `adj · (x · W₂ᵀ) = (adj · x) · W₂ᵀ`
  have key : ∑ n : Fin 10000, adj (ix2 r n) * proj x W n o
      = ∑ k : Fin 128, support x adj r k * W (ix2 o (hi k)) := by
    unfold proj support
    simp only [hxr, har, hwr]
    exact assoc_real xr ar wr r o
  unfold selfTerm
  -- split the 256 columns into the two halves and read the concatenation on each
  rw [sum_halves, key]
  simp only [cat_lo, cat_hi]
  -- `(A + b) + C = (A + C) + b` in the commutative monoid of extended reals
  exact add_right_comm _ _ _

/-- On real data the two arrangements are one function. -/
theorem outK_eq_outR (x : SX.Idx → EReal) (adj : SA.Idx → EReal) (W : SW.Idx → EReal) (b : SB.Idx → EReal)
    (hx : ∀ i, ∃ r : ℝ, x i = (r : EReal)) (hadj : ∀ i, ∃ r : ℝ, adj i = (r : EReal)) (hW : ∀ i, ∃ r : ℝ, W i = (r : EReal)) :
    outK x adj W b = outR x adj W b := by
  funext i
  exact entry_eq x adj W b hx hadj hW (i 0) (i 1)

end Cert.Spec

end
-- ==== Proof.KFinal.lean ====
import proofs.«101691_g50706383897204_cont_8to1c4_451_17_alg».proof.Proof.FrameIdeal.Launch
import proofs.«101691_g50706383897204_cont_8to1c4_451_17_alg».proof.Proof.Spec
import Idealize.ShloMosaic.Lib.Pipeline.Value
import Idealize.ShloMosaic.Lib.ValueIdx
import Idealize.ShloMosaic.Lib.StableHlo.Run

/-! # From the output blocks to the program's result

The region writes the output array `[2, 5000, 128]` block by block: grid point `t` writes rows
`200 t … 200 t + 199` of both halves. If every block holds the layer's value at its rows — half `h`,
row `r` of block `t` is node `5000 h + 200 t + r` — then, the 25 blocks tiling the array, the array
ends holding the layer's value at node `5000 h + R` in half `h`, row `R`; and the reshape to
`[10000, 128]` that follows reads node `ρ` at half `ρ / 5000`, row `ρ % 5000`, which is node `ρ` again. -/

noncomputable section

namespace Cert.KernelIdeal.KFinal

open Cert.KernelIdeal Cert.KernelIdeal.Gen Cert.KernelIdeal.Frame
open Idealize.ShloMosaic Idealize.ShloMosaic.TcCoe Idealize.SL.Sem ValueIdx
open Idealize.ShloMosaic.Pipeline (Dat)

variable (m : (ℓ : Loc nD τ sig) → Buf (Elt Ideal) ℓ) (c : Dev nD)

/-- The grid has 25 points. -/
theorem point_lt (t : Fin cfg0.N) : t.val < 25 :=
  Nat.lt_of_lt_of_eq t.isLt N_0

/-- Half `h`, row `r` of block `t` is a node: `5000 h + 200 t + r < 10000`. -/
theorem node_lt (t : Fin cfg0.N) (h : Fin 2) (r : Fin 200) : h.val * 5000 + 200 * t.val + r.val < 10000 := by
  have := point_lt t
  have := h.isLt
  have := r.isLt
  omega

/-- The layer's value on the launch contents of the four arguments. -/
abbrev layer : Cert.Spec.SX.Idx → EReal :=
  Cert.Spec.outK (m ((c : Thread nD τ).loc main_arg0)) (m ((c : Thread nD τ).loc main_arg1))
    (m ((c : Thread nD τ).loc main_arg2)) (m ((c : Thread nD τ).loc main_arg3))

/-- What the output array ends holding: half `h`, row `R`, feature `o` is the layer at node `5000 h + R`. -/
def G3 : S2x5000x128.Idx → EReal := fun j =>
  layer m c (ix2 (⟨(j 0).val * 5000 + (j 1).val, by
      have h0 : (j 0).val < 2 := (j 0).isLt
      have h1 : (j 1).val < 5000 := (j 1).isLt
      omega⟩ : Fin 10000) (⟨(j 2).val, (j 2).isLt⟩ : Fin 128))

/-- `G3` at an index whose node and feature are named. -/
theorem G3_at (j : S2x5000x128.Idx) (R : Fin 10000) (o : Fin 128)
    (hR : (j 0).val * 5000 + (j 1).val = R.val) (ho : (j 2).val = o.val) :
    G3 m c j = layer m c (ix2 R o) := by
  unfold G3
  congr 1
  funext a
  match a with
  | ⟨0, _⟩ => exact Fin.ext hR
  | ⟨1, _⟩ => exact Fin.ext ho

/-! ## The output window's blocks -/

/-- The output window's index map, decided over the grid: point `t` writes block `(0, t, 0)`. -/
theorem idx_facts5 : ∀ t : Fin cfg0.N, win0_5.index t (0 : Fin 3) = 0 ∧ win0_5.index t (1 : Fin 3) = t.val
    ∧ win0_5.index t (2 : Fin 3) = 0 :=
  (by decide +kernel : ∀ t : Fin grid0.N, win0_5.index t (0 : Fin 3) = 0 ∧ win0_5.index t (1 : Fin 3) = t.val
    ∧ win0_5.index t (2 : Fin 3) = 0)

/-- What point `t` writes back is block `t` of `G3`, when every block holds the layer's value at its rows. -/
theorem flushed5_eq
    (hblock : ∀ (t : Fin cfg0.N) (h : Fin 2) (r : Fin 200) (o : Fin 128),
      (outsAt0 (F := Ideal) m c t.val t.isLt).1 (ix3 h r o)
        = layer m c (ix2 (⟨h.val * 5000 + 200 * t.val + r.val, node_lt t h r⟩ : Fin 10000) o))
    (t : Fin cfg0.N) :
    (dats (F := Ideal) m 0 c).flushed 5 t = ((cfg0.win 5).blk t).view.read (Elt Ideal) (G3 m c) := by
  show (cfg0.win 5).cut (grid0.coords t) ((dats (F := Ideal) m 0 c).after 5 t) = _
  rw [after0_5]
  obtain ⟨e0, e1, e2⟩ := idx_facts5 t
  funext j
  have hj0 : (j 0).val < 2 := (j 0).isLt
  have hj1 : (j 1).val < 200 := (j 1).isLt
  have hj2 : (j 2).val < 128 := (j 2).isLt
  -- the block's index by coordinates
  have hx : (cfg0.win 5).xinj (grid0.coords t) j
      = ix3 (⟨(j 0).val, hj0⟩ : Fin 2) (⟨(j 1).val, hj1⟩ : Fin 200) (⟨(j 2).val, hj2⟩ : Fin 128) :=
    funext fun a => match a with
      | ⟨0, _⟩ => rfl
      | ⟨1, _⟩ => rfl
      | ⟨2, _⟩ => rfl
  show (outsAt0 (F := Ideal) m c t.val t.isLt).1 ((cfg0.win 5).xinj (grid0.coords t) j)
    = G3 m c (((cfg0.win 5).blk t).view.emb j)
  rw [hx, hblock t ⟨(j 0).val, hj0⟩ ⟨(j 1).val, hj1⟩ ⟨(j 2).val, hj2⟩]
  refine (G3_at m c _ _ _ ?_ ?_).symm
  · show (win0_5.index t (0 : Fin 3) * 2 + 1 * (j 0).val) * 5000 + (win0_5.index t (1 : Fin 3) * 200 + 1 * (j 1).val)
      = (j 0).val * 5000 + 200 * t.val + (j 1).val
    rw [e0, e1]; omega
  · show win0_5.index t (2 : Fin 3) * 128 + 1 * (j 2).val = (j 2).val
    rw [e2]; omega

/-- An index of the array is in point `t`'s block iff each coordinate is in the block's range on its axis. -/
theorem mem_blk5 (t : Fin cfg0.N) (i : S2x5000x128.Idx) :
    i ∈ ((cfg0.win 5).blk t).view.set ↔ ∀ a : Fin 3, win0_5.index t a * S2x200x128.size a ≤ (i a).val
      ∧ (i a).val < win0_5.index t a * S2x200x128.size a + S2x200x128.size a := by
  show i ∈ ((View.whole main_v1).slice (win0_5.rect t)).set ↔ _
  rw [View.set_slice_whole, Rect.mem_set_unit]
  exact Iff.rfl

/-- The 25 blocks tile the array: row `R` of either half is in block `R / 200`. -/
theorem cover5 (i : S2x5000x128.Idx) :
    ∃ t : Fin cfg0.N, (cfg0.win 5).flush t = true ∧ i ∈ ((cfg0.win 5).blk t).view.set := by
  have hi0 : (i 0).val < 2 := (i 0).isLt
  have hi1 : (i 1).val < 5000 := (i 1).isLt
  have hi2 : (i 2).val < 128 := (i 2).isLt
  have hN : cfg0.N = 25 := N_0
  let t : Fin cfg0.N := ⟨(i 1).val / 200, by rw [hN]; omega⟩
  obtain ⟨e0, e1, e2⟩ := idx_facts5 t
  have ht : t.val = (i 1).val / 200 := rfl
  refine ⟨t, flush0_5 t, ?_⟩
  rw [mem_blk5]
  intro a
  match a with
  | ⟨0, _⟩ =>
    show win0_5.index t (0 : Fin 3) * 2 ≤ (i 0).val ∧ (i 0).val < win0_5.index t (0 : Fin 3) * 2 + 2
    rw [e0]; omega
  | ⟨1, _⟩ =>
    show win0_5.index t (1 : Fin 3) * 200 ≤ (i 1).val ∧ (i 1).val < win0_5.index t (1 : Fin 3) * 200 + 200
    rw [e1, ht]; omega
  | ⟨2, _⟩ =>
    show win0_5.index t (2 : Fin 3) * 128 ≤ (i 2).val ∧ (i 2).val < win0_5.index t (2 : Fin 3) * 128 + 128
    rw [e2]; omega

/-- The output array after the region: the layer's value, half by half. -/
theorem arr5_final
    (hblock : ∀ (t : Fin cfg0.N) (h : Fin 2) (r : Fin 200) (o : Fin 128),
      (outsAt0 (F := Ideal) m c t.val t.isLt).1 (ix3 h r o)
        = layer m c (ix2 (⟨h.val * 5000 + 200 * t.val + r.val, node_lt t h r⟩ : Fin 10000) o)) :
    (dats (F := Ideal) m 0 c).arrAt 5 cfg0.N = G3 m c :=
  (dats (F := Ideal) m 0 c).arrAt_eq_of_cover 5 (G3 m c) (fun t _ => flushed5_eq m c hblock t) (cover5)

/-! ## The reshape of the result -/

/-- The two halves laid end to end: node `ρ` is read at half `ρ / 5000`, row `ρ % 5000`. -/
theorem reshape_G3 (hn : S2x5000x128.ShapeCasts S10000x128) (ρ : Fin 10000) (o : Fin 128) :
    shapeCast S10000x128 (G3 m c) hn (ix2 ρ o) = layer m c (ix2 ρ o) := by
  have hρ := ρ.isLt
  rw [shapeCast_apply (G3 m c) hn (ix2 ρ o)
    (ix3 (⟨ρ.val / 5000, by omega⟩ : Fin 2) (⟨ρ.val % 5000, by omega⟩ : Fin 5000) o) (by
      rw [Shape.rowMajor_val_three, Shape.rowMajor_val_two]
      show (ρ.val / 5000 * 5000 + ρ.val % 5000) * 128 + o.val = ρ.val * 128 + o.val
      omega)]
  exact G3_at m c _ ρ o (by show ρ.val / 5000 * 5000 + ρ.val % 5000 = ρ.val; omega) rfl

/-- The program's result is the layer's value. -/
theorem kernel_value
    (hblock : ∀ (t : Fin cfg0.N) (h : Fin 2) (r : Fin 200) (o : Fin 128),
      (outsAt0 (F := Ideal) m c t.val t.isLt).1 (ix3 h r o)
        = layer m c (ix2 (⟨h.val * 5000 + 200 * t.val + r.val, node_lt t h r⟩ : Fin 10000) o)) :
    Wfin (F := Ideal) m c main_v2 = layer m c := by
  unfold Wfin
  simp only [hostOps1, StableHlo.after_cons, StableHlo.after_nil]
  rw [StableHlo.reshape_result', Wexit_v1, arr5_final m c hblock]
  funext i
  obtain ⟨ρ, o, rfl⟩ : ∃ (ρ : Fin 10000) (o : Fin 128), i = ix2 ρ o := ⟨i 0, i 1, eq_ix2 i⟩
  exact reshape_G3 m c _ ρ o

end Cert.KernelIdeal.KFinal

end
-- ==== Proof.KBlock1.lean ====
import proofs.«101691_g50706383897204_cont_8to1c4_451_17_alg».proof.Proof.FrameIdeal.Data
import Idealize.ShloMosaic.Lib.Pipeline.Value
import Idealize.ShloMosaic.Lib.Pipeline.FrameBody
import Idealize.ShloMosaic.Lib.ValueIdx

/-! # What the body's stores leave, piece by piece

The body's run leaves in the scratch one stored piece, the projected features `x · W₂ᵀ` (as bf16), and in
the output block two stored pieces, its two halves. Read back, each piece is its payload over the blocks
the body loaded: the whole buffers, the two row slices of the features at the point's offsets, and the two
column halves of the weight. Every statement here holds at any float semantics. -/

set_option maxRecDepth 16384

noncomputable section

namespace Cert.KernelIdeal.KBlock

open Cert.KernelIdeal Cert.KernelIdeal.Gen Cert.KernelIdeal.Frame
open Idealize.ShloMosaic Idealize.ShloMosaic.TcCoe Idealize.ShloMosaic.Tactic
open Idealize.ShloMosaic.ValueIdx
open Idealize.SL.Sem

variable {F : FTy → Type} [FloatOps F]

/-! ## The rectangles the body loads through -/

/-- The second column half of the weight, `W[:, 128:256]`. -/
abbrev rW2 : Rect S128x256 := Rect.unit (s := S128x256) ![0, 128] S128x128.size inb_S128x256_S128x128_0_128
/-- The first column half of the weight, `W[:, 0:128]`. -/
abbrev rW1 : Rect S128x256 := Rect.unit (s := S128x256) ![0, 0] S128x128.size inb_S128x256_S128x128_0_0
/-- The feature rows of the point's block in the top half. -/
abbrev rXa (i : grid0.Coords) : Rect S10000x128 := Rect.unit (s := S10000x128) (k0_off1 i) S200x128.size (k0_off1_inb i)
/-- The feature rows of the point's block in the bottom half. -/
abbrev rXb (i : grid0.Coords) : Rect S10000x128 := Rect.unit (s := S10000x128) (k0_off2 i) S200x128.size (k0_off2_inb i)
/-- Half `0` of the output block. -/
abbrev rO0 : Rect S2x200x128 := Rect.unit (s := S2x200x128) ![0, 0, 0] S1x200x128.size inb_S2x200x128_S1x200x128_0_0_0
/-- Half `1` of the output block. -/
abbrev rO1 : Rect S2x200x128 := Rect.unit (s := S2x200x128) ![1, 0, 0] S1x200x128.size inb_S2x200x128_S1x200x128_1_0_0

theorem hz2 : (![0, 0] : Fin 2 → Nat) = fun _ => 0 := funext fun a => by fin_cases a <;> rfl

/-- The projected features as the body computes them from the features and the weight. -/
abbrev yOf (x2 : Vec F S10000x128 .f32) (x3 : Vec F S128x256 .f32) : Vec F S10000x128 .bf16 :=
  k0_pay2 x2 (View.ld x3 rW2)

/-! ## The two halves of the output block, read at an index -/

/-- Index `(1, r, o)` of the block is index `(0, r, o)` of its half `1`. -/
theorem emb_half1 (r : Fin 200) (o : Fin 128) : rO1.emb (ix3 (0 : Fin 1) r o) = ix3 (1 : Fin 2) r o := by
  funext a
  apply Fin.ext
  match a with
  | ⟨0, _⟩ => rfl
  | ⟨1, _⟩ => show 0 + 1 * r.val = r.val; omega
  | ⟨2, _⟩ => show 0 + 1 * o.val = o.val; omega

/-- Index `(0, r, o)` of the block is index `(0, r, o)` of its half `0`. -/
theorem emb_half0 (r : Fin 200) (o : Fin 128) : rO0.emb (ix3 (0 : Fin 1) r o) = ix3 (0 : Fin 2) r o := by
  funext a
  apply Fin.ext
  match a with
  | ⟨0, _⟩ => rfl
  | ⟨1, _⟩ => show 0 + 1 * r.val = r.val; omega
  | ⟨2, _⟩ => show 0 + 1 * o.val = o.val; omega

/-- Half `0` holds no index of half `1`. -/
theorem not_mem_half1 (r : Fin 200) (o : Fin 128) : ix3 (0 : Fin 2) r o ∉ rO1.set := by
  intro hmem
  have h := (Rect.mem_set_unit.mp hmem) ⟨0, by decide⟩
  exact absurd h.1 (Nat.not_succ_le_zero 0)

/-- Two stores, half `0` then half `1`: at `(1, r, o)` the block holds the later payload. -/
theorem canon_half1 (w1 w0 : Vec F S1x200x128 .f32) (r : Fin 200) (o : Fin 128) :
    View.canon (Val := Elt F) [(⟨rO1, w1⟩ : View.Piece (Elt F) S2x200x128 .f32), ⟨rO0, w0⟩] (ix3 (1 : Fin 2) r o)
      = w1 (ix3 (0 : Fin 1) r o) := by
  rw [← emb_half1 r o]
  exact View.canon_cons_emb rO1 w1 _ _

/-- At `(0, r, o)` it holds the earlier payload. -/
theorem canon_half0 (w1 w0 : Vec F S1x200x128 .f32) (r : Fin 200) (o : Fin 128) :
    View.canon (Val := Elt F) [(⟨rO1, w1⟩ : View.Piece (Elt F) S2x200x128 .f32), ⟨rO0, w0⟩] (ix3 (0 : Fin 2) r o)
      = w0 (ix3 (0 : Fin 1) r o) := by
  rw [View.canon_cons_of_not_mem (⟨rO1, w1⟩ : View.Piece (Elt F) S2x200x128 .f32) [⟨rO0, w0⟩] (not_mem_half1 r o),
    ← emb_half0 r o]
  exact View.canon_cons_emb rO0 w0 _ _

/-! ## The first point -/

/-- The first point leaves the projected features in the scratch. -/
theorem sout_A (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i) (x0 : Vec F S200x10000 .f32) (x1 : Vec F S200x10000 .f32) (x2 : Vec F S10000x128 .f32) (x3 : Vec F S128x256 .f32) (x4 : Vec F S1x128 .f32) :
    sout0_A_0 c i arg1 harg1 arg2 harg2 arg3 harg3 arg4 harg4 arg5 harg5 arg6 harg6 arg7 harg7 hc0 x0 x1 x2 x3 x4 = yOf x2 x3 := by
  unfold sout0_A_0
  rw [View.read_writes_eq_canon _ _ _ (scover0_A_0 c i arg1 harg1 arg2 harg2 arg3 harg3 arg4 harg4 arg5 harg5 arg6 harg6 arg7 harg7 hc0 x0 x1 x2 x3 x4)]
  unfold kernelRun0_A
  dsimp only
  sl_unfold_words
  rw [View.canon_unit_zero hz2]
  simp only [View.readAt_eq_ld, harg3.read_unread, harg4.read_unread, View.ld_unit_zero (S := S10000x128) hz2]

/-- Half `0` of the first point's block: the self term of the top rows plus their neighbour term. -/
theorem outA_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i) (x0 : Vec F S200x10000 .f32) (x1 : Vec F S200x10000 .f32) (x2 : Vec F S10000x128 .f32) (x3 : Vec F S128x256 .f32) (x4 : Vec F S1x128 .f32) (r : Fin 200) (o : Fin 128) :
    out0_A_5 c i arg1 harg1 arg2 harg2 arg3 harg3 arg4 harg4 arg5 harg5 arg6 harg6 arg7 harg7 hc0 x0 x1 x2 x3 x4 (ix3 (0 : Fin 2) r o)
      = k0_pay4 (yOf x2 x3) (View.ld x2 (rXa i)) (View.ld x3 rW1) x4 x0 (ix3 (0 : Fin 1) r o) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [canon_half0]
  simp only [View.readAt_eq_ld, harg1.read_unread, harg2.read_unread, harg3.read_unread, harg4.read_unread, harg5.read_unread,
    View.readCov_unit_zero (S := S10000x128) _ hz2,
    View.ld_unit_zero (S := S10000x128) hz2, View.ld_unit_zero (S := S200x10000) hz2, View.ld_unit_zero (S := S1x128) hz2]
  rfl

/-- Half `1` of the first point's block: the same of the bottom rows. -/
theorem outA_1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : cond0_0 i) (x0 : Vec F S200x10000 .f32) (x1 : Vec F S200x10000 .f32) (x2 : Vec F S10000x128 .f32) (x3 : Vec F S128x256 .f32) (x4 : Vec F S1x128 .f32) (r : Fin 200) (o : Fin 128) :
    out0_A_5 c i arg1 harg1 arg2 harg2 arg3 harg3 arg4 harg4 arg5 harg5 arg6 harg6 arg7 harg7 hc0 x0 x1 x2 x3 x4 (ix3 (1 : Fin 2) r o)
      = k0_pay1 (yOf x2 x3) (k0_pay3 (View.ld x2 (rXb i)) (View.ld x3 rW1) x4) x1 (ix3 (0 : Fin 1) r o) := by
  unfold out0_A_5
  rw [View.read_writes_eq_canon _ _ _ (cover0_A_5 c i arg1 harg1 arg2 harg2 arg3 harg3 arg4 harg4 arg5 harg5 arg6 harg6 arg7 harg7 hc0 x0 x1 x2 x3 x4)]
  unfold kernelRun0_A
  dsimp only
  sl_unfold_words
  rw [canon_half1]
  simp only [View.readAt_eq_ld, harg1.read_unread, harg2.read_unread, harg3.read_unread, harg4.read_unread, harg5.read_unread,
    View.readCov_unit_zero (S := S10000x128) _ hz2,
    View.ld_unit_zero (S := S10000x128) hz2, View.ld_unit_zero (S := S200x10000) hz2, View.ld_unit_zero (S := S1x128) hz2]
  rfl

/-! ## A later point, over the scratch as it finds it -/

/-- Half `0` of a later point's block. -/
theorem outB_0 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i) (x0 : Vec F S200x10000 .f32) (x1 : Vec F S200x10000 .f32) (x2 : Vec F S10000x128 .f32) (x3 : Vec F S128x256 .f32) (x4 : Vec F S1x128 .f32) (xs0 : Vec F S10000x128 .bf16) (r : Fin 200) (o : Fin 128) :
    out0_B_5 c i arg1 harg1 arg2 harg2 arg3 harg3 arg4 harg4 arg5 harg5 arg6 harg6 arg7 harg7 hc0 x0 x1 x2 x3 x4 xs0 (ix3 (0 : Fin 2) r o)
      = k0_pay4 xs0 (View.ld x2 (rXa i)) (View.ld x3 rW1) x4 x0 (ix3 (0 : Fin 1) r o) := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [canon_half0]
  simp only [View.readAt_eq_ld, harg1.read_unread, harg2.read_unread, harg3.read_unread, harg4.read_unread, harg5.read_unread, harg7.read_unread,
    View.ld_unit_zero (S := S10000x128) hz2, View.ld_unit_zero (S := S200x10000) hz2, View.ld_unit_zero (S := S1x128) hz2]
  rfl

/-- Half `1` of a later point's block. -/
theorem outB_1 (c : Dev nD) (i : grid0.Coords) (arg1 : Memref sig .tc .vmem S200x10000 .f32) (harg1 : arg1.IsWhole) (arg2 : Memref sig .tc .vmem S200x10000 .f32) (harg2 : arg2.IsWhole) (arg3 : Memref sig .tc .vmem S10000x128 .f32) (harg3 : arg3.IsWhole) (arg4 : Memref sig .tc .vmem S128x256 .f32) (harg4 : arg4.IsWhole) (arg5 : Memref sig .tc .vmem S1x128 .f32) (harg5 : arg5.IsWhole) (arg6 : Memref sig .tc .vmem S2x200x128 .f32) (harg6 : arg6.IsWhole) (arg7 : Memref sig .tc .vmem S10000x128 .bf16) (harg7 : arg7.IsWhole) (hc0 : ¬cond0_0 i) (x0 : Vec F S200x10000 .f32) (x1 : Vec F S200x10000 .f32) (x2 : Vec F S10000x128 .f32) (x3 : Vec F S128x256 .f32) (x4 : Vec F S1x128 .f32) (xs0 : Vec F S10000x128 .bf16) (r : Fin 200) (o : Fin 128) :
    out0_B_5 c i arg1 harg1 arg2 harg2 arg3 harg3 arg4 harg4 arg5 harg5 arg6 harg6 arg7 harg7 hc0 x0 x1 x2 x3 x4 xs0 (ix3 (1 : Fin 2) r o)
      = k0_pay1 xs0 (k0_pay3 (View.ld x2 (rXb i)) (View.ld x3 rW1) x4) x1 (ix3 (0 : Fin 1) r o) := by
  unfold out0_B_5
  rw [View.read_writes_eq_canon _ _ _ (cover0_B_5 c i arg1 harg1 arg2 harg2 arg3 harg3 arg4 harg4 arg5 harg5 arg6 harg6 arg7 harg7 hc0 x0 x1 x2 x3 x4 xs0)]
  unfold kernelRun0_B
  dsimp only
  sl_unfold_words
  rw [canon_half1]
  simp only [View.readAt_eq_ld, harg1.read_unread, harg2.read_unread, harg3.read_unread, harg4.read_unread, harg5.read_unread, harg7.read_unread,
    View.ld_unit_zero (S := S10000x128) hz2, View.ld_unit_zero (S := S200x10000) hz2, View.ld_unit_zero (S := S1x128) hz2]
  rfl

end Cert.KernelIdeal.KBlock

end
-- ==== Proof.KBlock2.lean ====
import proofs.«101691_g50706383897204_cont_8to1c4_451_17_alg».proof.Proof.KBlock1
import Idealize.ShloMosaic.Lib.StableHlo.Run

/-! # The blocks the windows hold, index by index

The features, the weight and the reshaped bias are each one block: the whole array at every point. The
two adjacency windows hold row blocks of the same matrix: rows `200 t …` and `5000 + 200 t …`. The
in-body row slices of the features start at the same two offsets. The reshaped bias is the bias itself
read along its one axis. -/

set_option maxRecDepth 16384

noncomputable section

namespace Cert.KernelIdeal.KBlock

open Cert.KernelIdeal Cert.KernelIdeal.Gen Cert.KernelIdeal.Frame
open Idealize.ShloMosaic Idealize.ShloMosaic.TcCoe Idealize.ShloMosaic.Tactic
open Idealize.ShloMosaic.ValueIdx
open Idealize.SL.Sem

variable {F : FTy → Type} [FloatOps F]

variable (m : (ℓ : Loc nD τ sig) → Buf (Elt F) ℓ)

/-! ## Names of literal type for the arrays and the blocks -/

/-- The features `x`. -/
abbrev xarr (c : Dev nD) : Vec F S10000x128 .f32 := V m c main_arg0
/-- The adjacency matrix. -/
abbrev aarr (c : Dev nD) : Vec F S10000x10000 .f32 := V m c main_arg1
/-- The weight `W`. -/
abbrev warr (c : Dev nD) : Vec F S128x256 .f32 := V m c main_arg2
/-- The reshaped bias. -/
abbrev barr (c : Dev nD) : Vec F S1x128 .f32 := V m c main_v0
/-- The bias as launched. -/
abbrev bvec (c : Dev nD) : Vec F S128 .f32 := m ((c : Thread nD τ).loc main_arg3)

abbrev ablk0 (c : Dev nD) (t : Fin cfg0.N) : Vec F S200x10000 .f32 := iblk m c 0 t
abbrev ablk1 (c : Dev nD) (t : Fin cfg0.N) : Vec F S200x10000 .f32 := iblk m c 1 t
abbrev xblk (c : Dev nD) (t : Fin cfg0.N) : Vec F S10000x128 .f32 := iblk m c 2 t
abbrev wblk (c : Dev nD) (t : Fin cfg0.N) : Vec F S128x256 .f32 := iblk m c 3 t
abbrev bblk (c : Dev nD) (t : Fin cfg0.N) : Vec F S1x128 .f32 := iblk m c 4 t

/-! ## The index maps, decided over the grid -/

theorem idx0 : ∀ t : Fin cfg0.N, win0_0.index t 0 = t.val ∧ win0_0.index t 1 = 0 :=
  (by decide +kernel : ∀ t : Fin grid0.N, win0_0.index t 0 = t.val ∧ win0_0.index t 1 = 0)
theorem idx1 : ∀ t : Fin cfg0.N, win0_1.index t 0 = t.val + 25 ∧ win0_1.index t 1 = 0 :=
  (by decide +kernel : ∀ t : Fin grid0.N, win0_1.index t 0 = t.val + 25 ∧ win0_1.index t 1 = 0)
theorem idx2 : ∀ t : Fin cfg0.N, win0_2.index t 0 = 0 ∧ win0_2.index t 1 = 0 :=
  (by decide +kernel : ∀ t : Fin grid0.N, win0_2.index t 0 = 0 ∧ win0_2.index t 1 = 0)
theorem idx3 : ∀ t : Fin cfg0.N, win0_3.index t 0 = 0 ∧ win0_3.index t 1 = 0 :=
  (by decide +kernel : ∀ t : Fin grid0.N, win0_3.index t 0 = 0 ∧ win0_3.index t 1 = 0)
theorem idx4 : ∀ t : Fin cfg0.N, win0_4.index t 0 = 0 ∧ win0_4.index t 1 = 0 :=
  (by decide +kernel : ∀ t : Fin grid0.N, win0_4.index t 0 = 0 ∧ win0_4.index t 1 = 0)
/-- The grid coordinate of point `t` is `t`. -/
theorem coord0 : ∀ t : Fin cfg0.N, ((grid0.coords t) 0).val = t.val :=
  (by decide +kernel : ∀ t : Fin grid0.N, ((grid0.coords t) 0).val = t.val)

/-! ## The one-block windows hold their whole arrays -/

theorem xblk_eq (c : Dev nD) (t : Fin cfg0.N) : xblk m c t = xarr m c := by
  funext j
  unfold xblk xarr iblk
  rw [View.read_apply]
  show V m c main_arg0 _ = V m c main_arg0 j
  congr 1
  funext a
  apply Fin.ext
  match a with
  | ⟨0, _⟩ => show win0_2.index t 0 * 10000 + 1 * (j 0).val = (j 0).val; rw [(idx2 t).1]; omega
  | ⟨1, _⟩ => show win0_2.index t 1 * 128 + 1 * (j 1).val = (j 1).val; rw [(idx2 t).2]; omega

theorem wblk_eq (c : Dev nD) (t : Fin cfg0.N) : wblk m c t = warr m c := by
  funext j
  unfold wblk warr iblk
  rw [View.read_apply]
  show V m c main_arg2 _ = V m c main_arg2 j
  congr 1
  funext a
  apply Fin.ext
  match a with
  | ⟨0, _⟩ => show win0_3.index t 0 * 128 + 1 * (j 0).val = (j 0).val; rw [(idx3 t).1]; omega
  | ⟨1, _⟩ => show win0_3.index t 1 * 256 + 1 * (j 1).val = (j 1).val; rw [(idx3 t).2]; omega

theorem bblk_eq (c : Dev nD) (t : Fin cfg0.N) : bblk m c t = barr m c := by
  funext j
  unfold bblk barr iblk
  rw [View.read_apply]
  show V m c main_v0 _ = V m c main_v0 j
  congr 1
  funext a
  apply Fin.ext
  match a with
  | ⟨0, _⟩ => show win0_4.index t 0 * 1 + 1 * (j 0).val = (j 0).val; rw [(idx4 t).1]; omega
  | ⟨1, _⟩ => show win0_4.index t 1 * 128 + 1 * (j 1).val = (j 1).val; rw [(idx4 t).2]; omega

/-! ## The adjacency row blocks -/

/-- Window `0`'s block at point `t`: rows `200 t + r` of the matrix. -/
theorem ablk0_apply (c : Dev nD) (t : Fin cfg0.N) (r : Fin 200) (n : Fin 10000) (R : Fin 10000) (hR : R.val = 200 * t.val + r.val) :
    ablk0 m c t (ix2 r n) = aarr m c (ix2 R n) := by
  unfold ablk0 aarr iblk
  rw [View.read_apply]
  show V m c main_arg1 _ = V m c main_arg1 _
  congr 1
  funext a
  apply Fin.ext
  match a with
  | ⟨0, _⟩ => show win0_0.index t 0 * 200 + 1 * r.val = R.val; rw [(idx0 t).1, hR]; omega
  | ⟨1, _⟩ => show win0_0.index t 1 * 10000 + 1 * n.val = n.val; rw [(idx0 t).2]; omega

/-- Window `1`'s block at point `t`: rows `5000 + 200 t + r` of the matrix. -/
theorem ablk1_apply (c : Dev nD) (t : Fin cfg0.N) (r : Fin 200) (n : Fin 10000) (R : Fin 10000) (hR : R.val = 5000 + 200 * t.val + r.val) :
    ablk1 m c t (ix2 r n) = aarr m c (ix2 R n) := by
  unfold ablk1 aarr iblk
  rw [View.read_apply]
  show V m c main_arg1 _ = V m c main_arg1 _
  congr 1
  funext a
  apply Fin.ext
  match a with
  | ⟨0, _⟩ => show win0_1.index t 0 * 200 + 1 * r.val = R.val; rw [(idx1 t).1, hR]; omega
  | ⟨1, _⟩ => show win0_1.index t 1 * 10000 + 1 * n.val = n.val; rw [(idx1 t).2]; omega

/-! ## The in-body slices -/

/-- The top-half row slice of the features at point `t`: rows `200 t + r`. -/
theorem ldXa_apply (X : Vec F S10000x128 .f32) (t : Fin cfg0.N) (r : Fin 200) (k : Fin 128) (R : Fin 10000) (hR : R.val = 200 * t.val + r.val) :
    View.ld X (rXa (grid0.coords t)) (ix2 r k) = X (ix2 R k) := by
  show X ((rXa (grid0.coords t)).idx (ix2 r k)) = _
  congr 1
  funext a
  apply Fin.ext
  match a with
  | ⟨0, _⟩ => show k0_off1 (grid0.coords t) 0 + 1 * r.val = R.val; rw [k0_off1_eq, hR, ← coord0 t]; show 200 * _ + 1 * r.val = _; omega
  | ⟨1, _⟩ => show k0_off1 (grid0.coords t) 1 + 1 * k.val = k.val; rw [k0_off1_eq]; show 0 + 1 * k.val = k.val; omega

/-- The bottom-half row slice: rows `5000 + 200 t + r`. -/
theorem ldXb_apply (X : Vec F S10000x128 .f32) (t : Fin cfg0.N) (r : Fin 200) (k : Fin 128) (R : Fin 10000) (hR : R.val = 5000 + 200 * t.val + r.val) :
    View.ld X (rXb (grid0.coords t)) (ix2 r k) = X (ix2 R k) := by
  show X ((rXb (grid0.coords t)).idx (ix2 r k)) = _
  congr 1
  funext a
  apply Fin.ext
  match a with
  | ⟨0, _⟩ => show k0_off2 (grid0.coords t) 0 + 1 * r.val = R.val; rw [k0_off2_eq, hR, ← coord0 t]; show 200 * _ + 5000 + 1 * r.val = _; omega
  | ⟨1, _⟩ => show k0_off2 (grid0.coords t) 1 + 1 * k.val = k.val; rw [k0_off2_eq]; show 0 + 1 * k.val = k.val; omega

/-- The first column half of the weight: column `k`. -/
theorem ldW1_apply (Wt : Vec F S128x256 .f32) (o k : Fin 128) :
    View.ld Wt rW1 (ix2 o k) = Wt (ix2 o ⟨k.val, by omega⟩) := by
  show Wt (rW1.idx (ix2 o k)) = _
  congr 1
  funext a
  apply Fin.ext
  match a with
  | ⟨0, _⟩ => show 0 + 1 * o.val = o.val; omega
  | ⟨1, _⟩ => show 0 + 1 * k.val = k.val; omega

/-- The second column half of the weight: column `128 + k`. -/
theorem ldW2_apply (Wt : Vec F S128x256 .f32) (o k : Fin 128) :
    View.ld Wt rW2 (ix2 o k) = Wt (ix2 o ⟨128 + k.val, by omega⟩) := by
  show Wt (rW2.idx (ix2 o k)) = _
  congr 1
  funext a
  apply Fin.ext
  match a with
  | ⟨0, _⟩ => show 0 + 1 * o.val = o.val; omega
  | ⟨1, _⟩ => show 128 + 1 * k.val = 128 + k.val; omega

/-! ## The arrays as launched -/

theorem xarr_eq (c : Dev nD) : xarr m c = m ((c : Thread nD τ).loc main_arg0) := V_main_arg0 m c
theorem aarr_eq (c : Dev nD) : aarr m c = m ((c : Thread nD τ).loc main_arg1) := V_main_arg1 m c
theorem warr_eq (c : Dev nD) : warr m c = m ((c : Thread nD τ).loc main_arg2) := V_main_arg2 m c

/-- The reshaped bias at `(0, o)` is the bias at `o`. -/
theorem barr_apply (c : Dev nD) (o : Fin 128) : barr m c (ix2 (0 : Fin 1) o) = bvec m c (ix1 o) := by
  have e : (V m c main_v0 : S1x128.Idx → Elt F .f32)
      = shapeCast S1x128 (m ((c : Thread nD τ).loc main_arg3)) shapeCasts_S128_S1x128 := by
    dsimp only [V, V0]
    simp only [hostOps0, List.flatten_cons, List.flatten_nil, List.append_nil]
    after_results
    rfl
  show V m c main_v0 (ix2 (0 : Fin 1) o) = _
  rw [e]
  refine (shapeCast_apply _ _ (ix2 (0 : Fin 1) o) (ix1 o) ?_).trans rfl
  rw [Shape.rowMajor_val_one, Shape.rowMajor_val_two]
  show o.val = 0 * 128 + o.val
  omega

/-! ## The scratch from the first point on, and the block of every point as payloads over the arrays -/

/-- The projected features `x · W₂ᵀ` over the arrays. -/
abbrev yarr (c : Dev nD) : Vec F S10000x128 .bf16 := yOf (xarr m c) (warr m c)

/-- After every point the scratch holds the projected features: the first point stores them, a later point
    leaves the scratch as it found it. -/
theorem scratch_eq (c : Dev nD) : ∀ (n : ℕ) (hn : n < cfg0.N), (outsAt0 m c n hn).2 = yarr m c
  | 0, hn => by
    have e := outsAt0_A m c ⟨0, hn⟩ rfl
    rw [e]
    dsimp only
    refine (sout_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) scM0_0 (Memref.isWhole_whole _) ((hcond0_0 ⟨0, hn⟩).mpr rfl) (ablk0 m c ⟨0, hn⟩) (ablk1 m c ⟨0, hn⟩) (xblk m c ⟨0, hn⟩) (wblk m c ⟨0, hn⟩) (bblk m c ⟨0, hn⟩)).trans ?_
    show yOf (xblk m c ⟨0, hn⟩) (wblk m c ⟨0, hn⟩) = yOf (xarr m c) (warr m c)
    rw [xblk_eq, wblk_eq]
  | n + 1, hn => by
    have e := outsAt0_B m c ⟨n + 1, hn⟩ (Nat.succ_ne_zero n)
    rw [e]
    dsimp only
    exact scratch_eq c n _

/-- Half `0` of the block of point `t`, as the body's payload over the arrays. -/
theorem block_pay0 (c : Dev nD) (t : Fin cfg0.N) (r : Fin 200) (o : Fin 128) :
    (outsAt0 m c t.val t.isLt).1 (ix3 (0 : Fin 2) r o)
      = k0_pay4 (yarr m c) (View.ld (xarr m c) (rXa (grid0.coords t))) (View.ld (warr m c) rW1) (barr m c) (ablk0 m c t)
          (ix3 (0 : Fin 1) r o) := by
  by_cases h0 : t.val = 0
  · rw [outsAt0_A m c t h0]
    dsimp only
    refine (outA_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (ablk0 m c t) (ablk1 m c t) (xblk m c t) (wblk m c t) (bblk m c t) r o).trans ?_
    rw [xblk_eq, wblk_eq, bblk_eq]
  · rw [outsAt0_B m c t h0]
    dsimp only
    refine (outB_0 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (ablk0 m c t) (ablk1 m c t) (xblk m c t) (wblk m c t) (bblk m c t)
      (outsAt0 m c (t.val - 1) (Nat.lt_of_le_of_lt (Nat.sub_le _ _) t.isLt)).2 r o).trans ?_
    rw [scratch_eq m c (t.val - 1) _, xblk_eq, wblk_eq, bblk_eq]

/-- Half `1` of the block of point `t`, as the body's payload over the arrays. -/
theorem block_pay1 (c : Dev nD) (t : Fin cfg0.N) (r : Fin 200) (o : Fin 128) :
    (outsAt0 m c t.val t.isLt).1 (ix3 (1 : Fin 2) r o)
      = k0_pay1 (yarr m c) (k0_pay3 (View.ld (xarr m c) (rXb (grid0.coords t))) (View.ld (warr m c) rW1) (barr m c)) (ablk1 m c t)
          (ix3 (0 : Fin 1) r o) := by
  by_cases h0 : t.val = 0
  · rw [outsAt0_A m c t h0]
    dsimp only
    refine (outA_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (ablk0 m c t) (ablk1 m c t) (xblk m c t) (wblk m c t) (bblk m c t) r o).trans ?_
    rw [xblk_eq, wblk_eq, bblk_eq]
  · rw [outsAt0_B m c t h0]
    dsimp only
    refine (outB_1 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (ablk0 m c t) (ablk1 m c t) (xblk m c t) (wblk m c t) (bblk m c t)
      (outsAt0 m c (t.val - 1) (Nat.lt_of_le_of_lt (Nat.sub_le _ _) t.isLt)).2 r o).trans ?_
    rw [scratch_eq m c (t.val - 1) _, xblk_eq, wblk_eq, bblk_eq]

end Cert.KernelIdeal.KBlock

end
-- ==== Proof.KPay.lean ====
import proofs.«101691_g50706383897204_cont_8to1c4_451_17_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

/-! # The kernel body's payloads read at an index

Over the extended reals a change of float format is the identity, a matrix product into a zero
accumulator is the plain sum of products over the contracted axis, a cast that adds a leading unit
axis keeps the two coordinates, and a row broadcast down the rows reads the row. So each of the
body's four stored values, read at an index, is a textbook expression:

* the projection `y = x · W₂ᵀ`: `∑ₖ x (n, k) · W₂ (o, k)`;
* the self term `x · W₁ᵀ + b`: `∑ₖ x (r, k) · W₁ (o, k) + b o`;
* the self term plus the neighbour term `adj · y`: the former plus `∑ₙ adj (r, n) · y (n, o)`.

No arithmetic law is used: only the index bookkeeping of the three products. -/

noncomputable section

namespace Cert.KernelIdeal.KPay

open Cert.KernelIdeal Cert.KernelIdeal.Gen Idealize.ShloMosaic ValueIdx

/-! ## The three products' operand indices, axis by axis -/

/-- The left operand's free axis `0` carries the output's row. -/
theorem lhs_proj_0 (i : S10000x128.Idx) (q : dot_S10000x128_S128x128_S10000x128_1_1_0_0_n_n.contr.Idx) :
    (dot_S10000x128_S128x128_S10000x128_1_1_0_0_n_n.lhsIdx i q 0).val = (i 0).val := by
  unfold DotDims.lhsIdx
  rw [dif_neg (show ¬(0 : Fin S10000x128.rank) ∈ dot_S10000x128_S128x128_S10000x128_1_1_0_0_n_n.lhsBatch by decide), dif_pos (show (0 : Fin S10000x128.rank) ∈ dot_S10000x128_S128x128_S10000x128_1_1_0_0_n_n.lhsNonContracting by decide)]
  rfl
/-- The left operand's contracted axis `1` carries the contraction position. -/
theorem lhs_proj_1 (i : S10000x128.Idx) (q : dot_S10000x128_S128x128_S10000x128_1_1_0_0_n_n.contr.Idx) :
    (dot_S10000x128_S128x128_S10000x128_1_1_0_0_n_n.lhsIdx i q 1).val = (q ⟨0, by decide⟩).val :=
  dot_S10000x128_S128x128_S10000x128_1_1_0_0_n_n.lhsIdx_val_of_single rfl i q
/-- The right operand's free axis `0` carries the output's column. -/
theorem rhs_proj_0 (i : S10000x128.Idx) (q : dot_S10000x128_S128x128_S10000x128_1_1_0_0_n_n.contr.Idx) :
    (dot_S10000x128_S128x128_S10000x128_1_1_0_0_n_n.rhsIdx i q 0).val = (i 1).val := by
  unfold DotDims.rhsIdx
  rw [dif_neg (show ¬(0 : Fin S128x128.rank) ∈ dot_S10000x128_S128x128_S10000x128_1_1_0_0_n_n.rhsBatch by decide), dif_pos (show (0 : Fin S128x128.rank) ∈ dot_S10000x128_S128x128_S10000x128_1_1_0_0_n_n.rhsNonContracting by decide)]
  rfl
/-- The right operand's contracted axis `1` carries the contraction position. -/
theorem rhs_proj_1 (i : S10000x128.Idx) (q : dot_S10000x128_S128x128_S10000x128_1_1_0_0_n_n.contr.Idx) :
    (dot_S10000x128_S128x128_S10000x128_1_1_0_0_n_n.rhsIdx i q 1).val = (q ⟨0, by decide⟩).val :=
  dot_S10000x128_S128x128_S10000x128_1_1_0_0_n_n.rhsIdx_val_of_single rfl i q

/-- The left operand's free axis `0` carries the output's row. -/
theorem lhs_self_0 (i : S200x128.Idx) (q : dot_S200x128_S128x128_S200x128_1_1_0_0_n_n.contr.Idx) :
    (dot_S200x128_S128x128_S200x128_1_1_0_0_n_n.lhsIdx i q 0).val = (i 0).val := by
  unfold DotDims.lhsIdx
  rw [dif_neg (show ¬(0 : Fin S200x128.rank) ∈ dot_S200x128_S128x128_S200x128_1_1_0_0_n_n.lhsBatch by decide), dif_pos (show (0 : Fin S200x128.rank) ∈ dot_S200x128_S128x128_S200x128_1_1_0_0_n_n.lhsNonContracting by decide)]
  rfl
/-- The left operand's contracted axis `1` carries the contraction position. -/
theorem lhs_self_1 (i : S200x128.Idx) (q : dot_S200x128_S128x128_S200x128_1_1_0_0_n_n.contr.Idx) :
    (dot_S200x128_S128x128_S200x128_1_1_0_0_n_n.lhsIdx i q 1).val = (q ⟨0, by decide⟩).val :=
  dot_S200x128_S128x128_S200x128_1_1_0_0_n_n.lhsIdx_val_of_single rfl i q
/-- The right operand's free axis `0` carries the output's column. -/
theorem rhs_self_0 (i : S200x128.Idx) (q : dot_S200x128_S128x128_S200x128_1_1_0_0_n_n.contr.Idx) :
    (dot_S200x128_S128x128_S200x128_1_1_0_0_n_n.rhsIdx i q 0).val = (i 1).val := by
  unfold DotDims.rhsIdx
  rw [dif_neg (show ¬(0 : Fin S128x128.rank) ∈ dot_S200x128_S128x128_S200x128_1_1_0_0_n_n.rhsBatch by decide), dif_pos (show (0 : Fin S128x128.rank) ∈ dot_S200x128_S128x128_S200x128_1_1_0_0_n_n.rhsNonContracting by decide)]
  rfl
/-- The right operand's contracted axis `1` carries the contraction position. -/
theorem rhs_self_1 (i : S200x128.Idx) (q : dot_S200x128_S128x128_S200x128_1_1_0_0_n_n.contr.Idx) :
    (dot_S200x128_S128x128_S200x128_1_1_0_0_n_n.rhsIdx i q 1).val = (q ⟨0, by decide⟩).val :=
  dot_S200x128_S128x128_S200x128_1_1_0_0_n_n.rhsIdx_val_of_single rfl i q

/-- The left operand's free axis `0` carries the output's row. -/
theorem lhs_nbr_0 (i : S200x128.Idx) (q : dot_S200x10000_S10000x128_S200x128_1_0_0_1_n_n.contr.Idx) :
    (dot_S200x10000_S10000x128_S200x128_1_0_0_1_n_n.lhsIdx i q 0).val = (i 0).val := by
  unfold DotDims.lhsIdx
  rw [dif_neg (show ¬(0 : Fin S200x10000.rank) ∈ dot_S200x10000_S10000x128_S200x128_1_0_0_1_n_n.lhsBatch by decide), dif_pos (show (0 : Fin S200x10000.rank) ∈ dot_S200x10000_S10000x128_S200x128_1_0_0_1_n_n.lhsNonContracting by decide)]
  rfl
/-- The left operand's contracted axis `1` carries the contraction position. -/
theorem lhs_nbr_1 (i : S200x128.Idx) (q : dot_S200x10000_S10000x128_S200x128_1_0_0_1_n_n.contr.Idx) :
    (dot_S200x10000_S10000x128_S200x128_1_0_0_1_n_n.lhsIdx i q 1).val = (q ⟨0, by decide⟩).val :=
  dot_S200x10000_S10000x128_S200x128_1_0_0_1_n_n.lhsIdx_val_of_single rfl i q
/-- The right operand's contracted axis `0` carries the contraction position. -/
theorem rhs_nbr_0 (i : S200x128.Idx) (q : dot_S200x10000_S10000x128_S200x128_1_0_0_1_n_n.contr.Idx) :
    (dot_S200x10000_S10000x128_S200x128_1_0_0_1_n_n.rhsIdx i q 0).val = (q ⟨0, by decide⟩).val :=
  dot_S200x10000_S10000x128_S200x128_1_0_0_1_n_n.rhsIdx_val_of_single rfl i q
/-- The right operand's free axis `1` carries the output's column. -/
theorem rhs_nbr_1 (i : S200x128.Idx) (q : dot_S200x10000_S10000x128_S200x128_1_0_0_1_n_n.contr.Idx) :
    (dot_S200x10000_S10000x128_S200x128_1_0_0_1_n_n.rhsIdx i q 1).val = (i 1).val := by
  unfold DotDims.rhsIdx
  rw [dif_neg (show ¬(1 : Fin S10000x128.rank) ∈ dot_S200x10000_S10000x128_S200x128_1_0_0_1_n_n.rhsBatch by decide), dif_pos (show (1 : Fin S10000x128.rank) ∈ dot_S200x10000_S10000x128_S200x128_1_0_0_1_n_n.rhsNonContracting by decide)]
  rfl

/-! ## The three products at an index -/

/-- All nodes' features against a weight half, both contracted along the feature axis: `∑ₖ a (n, k) · b (o, k)`. -/
theorem mm_proj_apply (a : FVec Ideal S10000x128 .f32) (b : FVec Ideal S128x128 .f32) (n : Fin 10000) (o : Fin 128) :
    matmul dot_S10000x128_S128x128_S10000x128_1_1_0_0_n_n none a b (constant (F := Ideal) S10000x128 .f32 0x00000000#32) (ix2 n o)
      = ∑ k : Fin 128, a (ix2 n k) * b (ix2 o k) := by
  simp only [matmul]
  rw [Ideal.matmul_constant_zero_apply, ← Equiv.sum_comp (ValueIdx.contrEquiv1 dot_S10000x128_S128x128_S10000x128_1_1_0_0_n_n 128 rfl rfl).symm]
  refine Finset.sum_congr rfl fun k _ => ?_
  have hk := ValueIdx.contrEquiv1_symm_val dot_S10000x128_S128x128_S10000x128_1_1_0_0_n_n 128 rfl rfl k
  have el : dot_S10000x128_S128x128_S10000x128_1_1_0_0_n_n.lhsIdx (ix2 n o) ((ValueIdx.contrEquiv1 dot_S10000x128_S128x128_S10000x128_1_1_0_0_n_n 128 rfl rfl).symm k) = ix2 n k := funext fun ax => Fin.ext (by
    match ax with
    | ⟨0, _⟩ => exact lhs_proj_0 _ _
    | ⟨1, _⟩ => exact (lhs_proj_1 _ _).trans hk)
  have er : dot_S10000x128_S128x128_S10000x128_1_1_0_0_n_n.rhsIdx (ix2 n o) ((ValueIdx.contrEquiv1 dot_S10000x128_S128x128_S10000x128_1_1_0_0_n_n 128 rfl rfl).symm k) = ix2 o k := funext fun ax => Fin.ext (by
    match ax with
    | ⟨0, _⟩ => exact rhs_proj_0 _ _
    | ⟨1, _⟩ => exact (rhs_proj_1 _ _).trans hk)
  rw [el, er]

/-- A block of 200 nodes' features against a weight half, both contracted along the feature axis: `∑ₖ a (r, k) · b (o, k)`. -/
theorem mm_self_apply (a : FVec Ideal S200x128 .f32) (b : FVec Ideal S128x128 .f32) (r : Fin 200) (o : Fin 128) :
    matmul dot_S200x128_S128x128_S200x128_1_1_0_0_n_n none a b (constant (F := Ideal) S200x128 .f32 0x00000000#32) (ix2 r o)
      = ∑ k : Fin 128, a (ix2 r k) * b (ix2 o k) := by
  simp only [matmul]
  rw [Ideal.matmul_constant_zero_apply, ← Equiv.sum_comp (ValueIdx.contrEquiv1 dot_S200x128_S128x128_S200x128_1_1_0_0_n_n 128 rfl rfl).symm]
  refine Finset.sum_congr rfl fun k _ => ?_
  have hk := ValueIdx.contrEquiv1_symm_val dot_S200x128_S128x128_S200x128_1_1_0_0_n_n 128 rfl rfl k
  have el : dot_S200x128_S128x128_S200x128_1_1_0_0_n_n.lhsIdx (ix2 r o) ((ValueIdx.contrEquiv1 dot_S200x128_S128x128_S200x128_1_1_0_0_n_n 128 rfl rfl).symm k) = ix2 r k := funext fun ax => Fin.ext (by
    match ax with
    | ⟨0, _⟩ => exact lhs_self_0 _ _
    | ⟨1, _⟩ => exact (lhs_self_1 _ _).trans hk)
  have er : dot_S200x128_S128x128_S200x128_1_1_0_0_n_n.rhsIdx (ix2 r o) ((ValueIdx.contrEquiv1 dot_S200x128_S128x128_S200x128_1_1_0_0_n_n 128 rfl rfl).symm k) = ix2 o k := funext fun ax => Fin.ext (by
    match ax with
    | ⟨0, _⟩ => exact rhs_self_0 _ _
    | ⟨1, _⟩ => exact (rhs_self_1 _ _).trans hk)
  rw [el, er]

/-- A block of 200 adjacency rows against the projected features, contracted over the nodes: `∑ₙ a (r, n) · y (n, o)`. -/
theorem mm_nbr_apply (a : FVec Ideal S200x10000 .bf16) (b : FVec Ideal S10000x128 .bf16) (r : Fin 200) (o : Fin 128) :
    matmul dot_S200x10000_S10000x128_S200x128_1_0_0_1_n_n none a b (constant (F := Ideal) S200x128 .f32 0x00000000#32) (ix2 r o)
      = ∑ n : Fin 10000, a (ix2 r n) * b (ix2 n o) := by
  simp only [matmul]
  rw [Ideal.matmul_constant_zero_apply, ← Equiv.sum_comp (ValueIdx.contrEquiv1 dot_S200x10000_S10000x128_S200x128_1_0_0_1_n_n 10000 rfl rfl).symm]
  refine Finset.sum_congr rfl fun n _ => ?_
  have hk := ValueIdx.contrEquiv1_symm_val dot_S200x10000_S10000x128_S200x128_1_0_0_1_n_n 10000 rfl rfl n
  have el : dot_S200x10000_S10000x128_S200x128_1_0_0_1_n_n.lhsIdx (ix2 r o) ((ValueIdx.contrEquiv1 dot_S200x10000_S10000x128_S200x128_1_0_0_1_n_n 10000 rfl rfl).symm n) = ix2 r n := funext fun ax => Fin.ext (by
    match ax with
    | ⟨0, _⟩ => exact lhs_nbr_0 _ _
    | ⟨1, _⟩ => exact (lhs_nbr_1 _ _).trans hk)
  have er : dot_S200x10000_S10000x128_S200x128_1_0_0_1_n_n.rhsIdx (ix2 r o) ((ValueIdx.contrEquiv1 dot_S200x10000_S10000x128_S200x128_1_0_0_1_n_n 10000 rfl rfl).symm n) = ix2 n o := funext fun ax => Fin.ext (by
    match ax with
    | ⟨0, _⟩ => exact (rhs_nbr_0 _ _).trans hk
    | ⟨1, _⟩ => exact rhs_nbr_1 _ _)
  rw [el, er]

/-! ## The composite terms -/

/-- The self term: the product with the first weight half plus the bias row broadcast down the rows. -/
theorem self_apply (x : FVec Ideal S200x128 .f32) (w : FVec Ideal S128x128 .f32) (b : FVec Ideal S1x128 .f32)
    (r : Fin 200) (o : Fin 128) :
    addf (matmul dot_S200x128_S128x128_S200x128_1_1_0_0_n_n none x w (constant (F := Ideal) S200x128 .f32 0x00000000#32))
        (broadcastTo S200x128 (shapeCast S1x128 b shapeCasts_S1x128_S1x128) broadcasts_S1x128_S200x128) (ix2 r o)
      = (∑ k : Fin 128, x (ix2 r k) * w (ix2 o k)) + b (ix2 (0 : Fin 1) o) := by
  rw [addf_apply, mm_self_apply, shapeCast_self]
  exact congrArg ((∑ k : Fin 128, x (ix2 r k) * w (ix2 o k)) + ·) (broadcastTo_1b_ab_apply b broadcasts_S1x128_S200x128 r o)

/-- The neighbour term: the adjacency rows, their change of format the identity, against the projected features. -/
theorem nbr_apply (a : FVec Ideal S200x10000 .f32) (y : FVec Ideal S10000x128 .bf16) (r : Fin 200) (o : Fin 128) :
    matmul dot_S200x10000_S10000x128_S200x128_1_0_0_1_n_n none (truncf .bf16 a bitsLt_bf16_f32) y (constant (F := Ideal) S200x128 .f32 0x00000000#32) (ix2 r o)
      = ∑ n : Fin 10000, a (ix2 r n) * y (ix2 n o) :=
  mm_nbr_apply (truncf .bf16 a bitsLt_bf16_f32) y r o

/-! ## The four payloads -/

/-- The projection `y = x · W₂ᵀ`, stored in the narrower format: node `n`, output feature `o`. -/
theorem pay2_apply (v37 : Vec Ideal S10000x128 .f32) (v38 : Vec Ideal S128x128 .f32) (n : Fin 10000) (o : Fin 128) :
    k0_pay2 (F := Ideal) v37 v38 (ix2 n o) = ∑ k : Fin 128, v37 (ix2 n k) * v38 (ix2 o k) := by
  unfold k0_pay2
  refine (congrFun (shapeCast_self _ shapeCasts_S10000x128_S10000x128) (ix2 n o)).trans ?_
  exact mm_proj_apply v37 v38 n o

/-- The self term `x · W₁ᵀ + b` of the second half of a block pair: row `r`, output feature `o`. -/
theorem pay3_apply (v10 : Vec Ideal S200x128 .f32) (v17 : Vec Ideal S128x128 .f32) (v19 : Vec Ideal S1x128 .f32)
    (r : Fin 200) (o : Fin 128) :
    k0_pay3 (F := Ideal) v10 v17 v19 (ix2 r o)
      = (∑ k : Fin 128, v10 (ix2 r k) * v17 (ix2 o k)) + v19 (ix2 (0 : Fin 1) o) := by
  unfold k0_pay3
  exact self_apply v10 v17 v19 r o

/-- The first stored block: self term plus neighbour term, under a leading unit axis. -/
theorem pay4_apply (v3 : Vec Ideal S10000x128 .bf16) (v6 : Vec Ideal S200x128 .f32) (v11 : Vec Ideal S128x128 .f32)
    (v13 : Vec Ideal S1x128 .f32) (v23 : Vec Ideal S200x10000 .f32) (r : Fin 200) (o : Fin 128) :
    k0_pay4 (F := Ideal) v3 v6 v11 v13 v23 (ix3 (0 : Fin 1) r o)
      = ((∑ k : Fin 128, v6 (ix2 r k) * v11 (ix2 o k)) + v13 (ix2 (0 : Fin 1) o))
        + ∑ n : Fin 10000, v23 (ix2 r n) * v3 (ix2 n o) := by
  unfold k0_pay4
  refine (shapeCast_ab_1ab_apply _ shapeCasts_S200x128_S1x200x128 (0 : Fin 1) r o).trans ?_
  refine (addf_apply _ _ (ix2 r o)).trans ?_
  rw [self_apply v6 v11 v13 r o, nbr_apply v23 v3 r o]

/-- The second stored block: the carried self term plus the neighbour term, under a leading unit axis. -/
theorem pay1_apply (v3 : Vec Ideal S10000x128 .bf16) (v22 : FVec Ideal S200x128 .f32) (v30 : Vec Ideal S200x10000 .f32)
    (r : Fin 200) (o : Fin 128) :
    k0_pay1 (F := Ideal) v3 v22 v30 (ix3 (0 : Fin 1) r o)
      = v22 (ix2 r o) + ∑ n : Fin 10000, v30 (ix2 r n) * v3 (ix2 n o) := by
  unfold k0_pay1
  refine (shapeCast_ab_1ab_apply _ shapeCasts_S200x128_S1x200x128 (0 : Fin 1) r o).trans ?_
  refine (addf_apply _ _ (ix2 r o)).trans ?_
  rw [nbr_apply v30 v3 r o]

end Cert.KernelIdeal.KPay

end
-- ==== Proof.KBlock.lean ====
import proofs.«101691_g50706383897204_cont_8to1c4_451_17_alg».proof.Proof.KBlock2
import proofs.«101691_g50706383897204_cont_8to1c4_451_17_alg».proof.Proof.KPay
import proofs.«101691_g50706383897204_cont_8to1c4_451_17_alg».proof.Proof.Spec
import Mathlib.Algebra.BigOperators.Group.Finset.Basic

/-! # The value of the output block at every grid point

At `F := Ideal` every payload is its textbook formula over the extended reals. Half `h` of the block of
point `t`, at row `r` and output feature `o`, is the reassociated layer
`(x · W₁ᵀ + b) + adj · (x · W₂ᵀ)` at node `5000 h + 200 t + r`: the self term reads the node's own feature
row through the in-body slice, the neighbour term reads the node's adjacency row through the window's
block and the projected features from the scratch. -/

set_option maxRecDepth 16384

noncomputable section

namespace Cert.KernelIdeal.KBlock

open Cert.KernelIdeal Cert.KernelIdeal.Gen Cert.KernelIdeal.Frame
open Idealize.ShloMosaic Idealize.ShloMosaic.TcCoe Idealize.ShloMosaic.Tactic
open Idealize.ShloMosaic.ValueIdx
open Idealize.SL.Sem

open Cert.KernelIdeal.KPay

variable (m : (ℓ : Loc nD τ sig) → Buf (Elt Ideal) ℓ)

/-- The scratch at `(n, o)`: the projected feature `∑ₖ x(n, k) · W(o, 128 + k)`. -/
theorem yarr_apply (c : Dev nD) (n : Fin 10000) (o : Fin 128) :
    yarr (F := Ideal) m c (ix2 n o) = Cert.Spec.proj (xarr m c) (warr m c) n o := by
  refine (pay2_apply (xarr m c) (View.ld (warr m c) rW2) n o).trans ?_
  unfold Cert.Spec.proj
  refine Finset.sum_congr rfl fun k _ => ?_
  rw [ldW2_apply (warr m c) o k]

/-- Half `0` of the block of point `t` at `(r, o)` is the layer at node `200 t + r`. -/
theorem half0_value (c : Dev nD) (t : Fin cfg0.N) (r : Fin 200) (o : Fin 128) (R : Fin 10000) (hR : R.val = 200 * t.val + r.val) :
    (outsAt0 (F := Ideal) m c t.val t.isLt).1 (ix3 (0 : Fin 2) r o)
      = Cert.Spec.outK (xarr m c) (aarr m c) (warr m c) (bvec m c) (ix2 R o) := by
  rw [block_pay0 m c t r o]
  refine (pay4_apply (yarr m c) (View.ld (xarr m c) (rXa (grid0.coords t))) (View.ld (warr m c) rW1) (barr m c) (ablk0 m c t) r o).trans ?_
  show _ = Cert.Spec.selfTerm (xarr m c) (warr m c) (bvec m c) R o
      + ∑ n : Fin 10000, aarr m c (ix2 R n) * Cert.Spec.proj (xarr m c) (warr m c) n o
  unfold Cert.Spec.selfTerm
  rw [barr_apply m c o]
  refine congrArg₂ (· + ·) (congrArg₂ (· + ·) ?_ rfl) ?_
  · refine Finset.sum_congr rfl fun k _ => ?_
    rw [ldXa_apply (xarr m c) t r k R hR, ldW1_apply (warr m c) o k]
  · refine Finset.sum_congr rfl fun n _ => ?_
    rw [ablk0_apply m c t r n R hR, yarr_apply m c n o]

/-- Half `1` of the block of point `t` at `(r, o)` is the layer at node `5000 + 200 t + r`. -/
theorem half1_value (c : Dev nD) (t : Fin cfg0.N) (r : Fin 200) (o : Fin 128) (R : Fin 10000) (hR : R.val = 5000 + 200 * t.val + r.val) :
    (outsAt0 (F := Ideal) m c t.val t.isLt).1 (ix3 (1 : Fin 2) r o)
      = Cert.Spec.outK (xarr m c) (aarr m c) (warr m c) (bvec m c) (ix2 R o) := by
  rw [block_pay1 m c t r o]
  refine (pay1_apply (yarr m c) (k0_pay3 (View.ld (xarr m c) (rXb (grid0.coords t))) (View.ld (warr m c) rW1) (barr m c)) (ablk1 m c t) r o).trans ?_
  rw [pay3_apply (View.ld (xarr m c) (rXb (grid0.coords t))) (View.ld (warr m c) rW1) (barr m c) r o]
  show _ = Cert.Spec.selfTerm (xarr m c) (warr m c) (bvec m c) R o
      + ∑ n : Fin 10000, aarr m c (ix2 R n) * Cert.Spec.proj (xarr m c) (warr m c) n o
  unfold Cert.Spec.selfTerm
  rw [barr_apply m c o]
  refine congrArg₂ (· + ·) (congrArg₂ (· + ·) ?_ rfl) ?_
  · refine Finset.sum_congr rfl fun k _ => ?_
    rw [ldXb_apply (xarr m c) t r k R hR, ldW1_apply (warr m c) o k]
  · refine Finset.sum_congr rfl fun n _ => ?_
    rw [ablk1_apply m c t r n R hR, yarr_apply m c n o]

/-- The output block of point `t` at `(h, r, o)` is the reassociated layer at node `5000 h + 200 t + r`,
    output feature `o`, over the arrays as launched. -/
theorem block_value (c : Dev nD) (t : Fin cfg0.N) (h : Fin 2) (r : Fin 200) (o : Fin 128) :
    (outsAt0 (F := Ideal) m c t.val t.isLt).1 (ix3 h r o)
      = Cert.Spec.outK (m ((c : Thread nD τ).loc main_arg0)) (m ((c : Thread nD τ).loc main_arg1))
          (m ((c : Thread nD τ).loc main_arg2)) (m ((c : Thread nD τ).loc main_arg3))
          (ix2 (⟨h.val * 5000 + 200 * t.val + r.val, by
            have := t.isLt; have := h.isLt; have := r.isLt; have : cfg0.N = 25 := N_0; omega⟩ : Fin 10000) o) := by
  have hN : cfg0.N = 25 := N_0
  match h with
  | ⟨0, _⟩ =>
    have e := half0_value m c t r o ⟨0 * 5000 + 200 * t.val + r.val, by have := t.isLt; have := r.isLt; omega⟩
      (by show 0 * 5000 + 200 * t.val + r.val = 200 * t.val + r.val; omega)
    rw [xarr_eq, aarr_eq, warr_eq] at e
    exact e
  | ⟨1, _⟩ =>
    have e := half1_value m c t r o ⟨1 * 5000 + 200 * t.val + r.val, by have := t.isLt; have := r.isLt; omega⟩
      (by show 1 * 5000 + 200 * t.val + r.val = 5000 + 200 * t.val + r.val; omega)
    rw [xarr_eq, aarr_eq, warr_eq] at e
    exact e

end Cert.KernelIdeal.KBlock

end
-- ==== Proof.RefValue.lean ====
import proofs.«101691_g50706383897204_cont_8to1c4_451_17_alg».proof.Proof.Gen.ReferenceIdeal.Read
import proofs.«101691_g50706383897204_cont_8to1c4_451_17_alg».proof.Proof.Spec
import Idealize.ShloMosaic.Lib.ValueIdx
import Idealize.ShloMosaic.Lib.Pipeline.Value
import Idealize.ShloMosaic.PureOps.Ideal
import Idealize.ShloMosaic.PureOps.Ideal.Laws

/-! # The reference's result read index by index

The reference computes `[x | adj · x] · Wᵀ + b` literally: a matrix product `adj · x`, a concatenation
along the feature axis, a transpose of the weight, a second matrix product over the 256 joined
columns, and the bias broadcast along the rows and added. Read at an index `(r, o)` over the extended
reals, each stage is the textbook expression, and the whole is the specification's concatenation
form `Cert.Spec.outR`. No arithmetic law is needed: the two sides are the same sums of the same
products, term by term; only the index bookkeeping has to be matched. -/

noncomputable section

namespace Cert.RefValue

open Idealize.ShloMosaic ValueIdx Cert.ReferenceIdeal Cert.ReferenceIdeal.Read

/-- The aggregated features `adj · x` at node `r`, feature `k`: the first matrix product, its
    contraction running over the nodes. -/
theorem support_apply (x0 : (⟨S10000x128, .f32⟩ : BufTy).Contents (Elt Ideal))
    (x1 : (⟨S10000x10000, .f32⟩ : BufTy).Contents (Elt Ideal)) (r : Fin 10000) (k : Fin 128) :
    val_main_v0 (F := Ideal) x0 x1 (ix2 r k) = Cert.Spec.support x0 x1 r k := by
  rw [val_main_v0_apply]
  unfold Cert.Spec.support
  refine Finset.sum_congr rfl fun n _ => ?_
  have el : lidx_main_v0 (ix2 r k) n = ix2 r n :=
    funext fun a => Fin.ext (by match a with | ⟨0, _⟩ => rfl | ⟨1, _⟩ => rfl)
  have er : ridx_main_v0 (ix2 r k) n = ix2 n k :=
    funext fun a => Fin.ext (by match a with | ⟨0, _⟩ => rfl | ⟨1, _⟩ => rfl)
  rw [el, er]

/-- Row `r` of the joined matrix `[x | adj · x]` at column `j`: a column below 128 reads `x` at that
    column, a column from 128 on reads `adj · x` at the column less 128. -/
theorem cat_apply (x0 : (⟨S10000x128, .f32⟩ : BufTy).Contents (Elt Ideal))
    (x1 : (⟨S10000x10000, .f32⟩ : BufTy).Contents (Elt Ideal)) (r : Fin 10000) (j : Fin 256) :
    val_main_v1 (F := Ideal) x0 x1 (ix2 r j) = Cert.Spec.cat x0 x1 r j := by
  unfold val_main_v1 Cert.Spec.cat
  by_cases h : j.val < 128
  · rw [dif_pos h]
    exact concatenate_pair_apply_left (t := S10000x256) (s₁ := S10000x128) (s₂ := S10000x128)
      (1 : Fin 2) x0 (val_main_v0 (F := Ideal) x0 x1) _ (ix2 r j) rfl (ix2 r ⟨j.val, h⟩)
      (fun b => match b with | ⟨0, _⟩ => rfl | ⟨1, _⟩ => rfl)
  · rw [dif_neg h]
    have hj : j.val - 128 < 128 := by have := j.isLt; omega
    rw [concatenate_pair_apply_right (t := S10000x256) (s₁ := S10000x128) (s₂ := S10000x128)
      (1 : Fin 2) x0 (val_main_v0 (F := Ideal) x0 x1) _ (ix2 r j) rfl rfl (ix2 r ⟨j.val - 128, hj⟩)
      (fun b hb => match b, hb with
        | ⟨0, _⟩, _ => rfl
        | ⟨1, _⟩, hb => absurd rfl hb)
      (by show j.val - 128 + 128 = j.val; omega)]
    exact support_apply x0 x1 r ⟨j.val - 128, hj⟩

/-- The reference's result is the concatenation form of the layer, index by index. -/
theorem ref_eq (x0 : (⟨S10000x128, .f32⟩ : BufTy).Contents (Elt Ideal))
    (x1 : (⟨S10000x10000, .f32⟩ : BufTy).Contents (Elt Ideal))
    (x2 : (⟨S128x256, .f32⟩ : BufTy).Contents (Elt Ideal))
    (x3 : (⟨S128, .f32⟩ : BufTy).Contents (Elt Ideal)) :
    val_main_v6 (F := Ideal) x0 x1 x2 x3 = Cert.Spec.outR x0 x1 x2 x3 := by
  funext i
  obtain ⟨r, o, rfl⟩ : ∃ (r : Fin 10000) (o : Fin 128), i = ix2 r o := ⟨i 0, i 1, eq_ix2 i⟩
  rw [val_main_v6_apply, val_main_v3_apply, val_main_v5_apply, val_main_v4_apply, Ideal.addf_def]
  show _ = (∑ j : Fin 256, Cert.Spec.cat x0 x1 r j * x2 (ix2 o j)) + x3 (ix1 o)
  congr 1
  · -- the second matrix product: the joined row against the transposed weight, column by column
    refine Finset.sum_congr rfl fun j _ => ?_
    rw [val_main_v2_apply]
    have el : lidx_main_v3 (ix2 r o) j = ix2 r j :=
      funext fun a => Fin.ext (by match a with | ⟨0, _⟩ => rfl | ⟨1, _⟩ => rfl)
    have er : idx_main_v2 (ridx_main_v3 (ix2 r o) j) = ix2 o j :=
      funext fun a => Fin.ext (by match a with | ⟨0, _⟩ => rfl | ⟨1, _⟩ => rfl)
    rw [el, er, cat_apply]
  · -- the bias, broadcast along the rows: output feature `o` reads `b o`
    have eb : idx_main_v4 (idx_main_v5 (ix2 r o)) = ix1 o :=
      funext fun a => Fin.ext (by match a with | ⟨0, _⟩ => rfl)
    rw [eb]

end Cert.RefValue

end
-- ==== Proof.Finite.lean ====
/-
  From the printed precondition finite_inputs being all ones: every entry of the float inputs
  x, adj and W is a real number (at the ideal model an input ranges over the extended reals).
-/
import proofs.«101691_g50706383897204_cont_8to1c4_451_17_alg».proof.Pre_finite_inputs
import proofs.«101691_g50706383897204_cont_8to1c4_451_17_alg».proof.Proof.Gen.Pre_finite_inputs
import Idealize.ShloMosaic.Lib.ReduceAll
import Idealize.ShloMosaic.Lib.ValueIdx
import Idealize.ShloMosaic.PureOps.Ideal
import Mathlib.Data.EReal.Basic

namespace Cert.Finite

open Idealize.ShloMosaic

/-- The f32 bit pattern 0x7F800000 (sign 0, exponent all ones, fraction 0) denotes +∞. -/
theorem inf_bits : Ideal.ofBits .f32 0x7F800000#32 = (⊤ : EReal) := by
  simp [Ideal.ofBits, Ideal.ieee]

/-- An extended real a with |a| = max a (-a) strictly below +∞ is a real number:
    for a = ⊥ and a = ⊤ the absolute value is ⊤, which is not below ⊤. -/
theorem real_of_abs_lt_inf (a : EReal)
    (h : Ideal.cmp .olt (max a (-a)) (Ideal.ofBits .f32 0x7F800000#32) = 1#1) :
    ∃ r : ℝ, a = (r : EReal) := by
  rw [inf_bits] at h
  induction a using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- If the conjunction over all axes of the entrywise test |v i| < +∞ is 1, every entry of v is real. -/
theorem real_of_all {s : Shape} {axes : List (Fin s.rank)}
    (hb : Cert.Pre_finite_inputs.S_.BroadcastsInDim s (![] : Fin 0 → Fin s.rank))
    (hr : s.ReducesTo axes Cert.Pre_finite_inputs.S_) (hu : 0 < Cert.Pre_finite_inputs.S_.numel)
    (v : FVec Ideal s .f32)
    (e : Host.reduce IntOp.andi
          (cmpf .olt (Host.absf v)
            (broadcastInDim s ![] hb (constant (F := Ideal) Cert.Pre_finite_inputs.S_ .f32 0x7F800000#32)))
          (constantI Cert.Pre_finite_inputs.S_ 1 1#1) hr hu ValueIdx.ix0 = 1#1) :
    ∀ i, ∃ r : ℝ, v i = (r : EReal) := by
  intro i
  have hi := Host.reduce_andi_all _ _ hr hu ValueIdx.ix0 e i
  exact real_of_abs_lt_inf (v i) hi

/-- The precondition is the conjunction of the four all-entries-finite tests; the first three give
    that every entry of x, adj and W is real. -/
theorem real_of_pre [Cert.Pre_finite_inputs.Facts]
    (x : FVec Ideal Cert.Pre_finite_inputs.S10000x128 .f32)
    (adj : FVec Ideal Cert.Pre_finite_inputs.S10000x10000 .f32)
    (W : FVec Ideal Cert.Pre_finite_inputs.S128x256 .f32)
    (b : FVec Ideal Cert.Pre_finite_inputs.S128 .f32)
    (h : Cert.Pre_finite_inputs.fn (F := Ideal) x adj W b = (fun _ => 1#1)) :
    (∀ i, ∃ r : ℝ, x i = (r : EReal)) ∧ (∀ i, ∃ r : ℝ, adj i = (r : EReal)) ∧
      (∀ i, ∃ r : ℝ, W i = (r : EReal)) := by
  have h0 := congrFun h ValueIdx.ix0
  dsimp only [Cert.Pre_finite_inputs.fn, Cert.Pre_finite_inputs.fn_part1, Idealize.ShloMosaic.andi] at h0
  obtain ⟨h123, _⟩ := IntOp.andi_eq_one.1 h0
  obtain ⟨h12, h3⟩ := IntOp.andi_eq_one.1 h123
  obtain ⟨h1, h2⟩ := IntOp.andi_eq_one.1 h12
  exact ⟨real_of_all _ _ _ x h1, real_of_all _ _ _ adj h2, real_of_all _ _ _ W h3⟩

end Cert.Finite
-- ==== Proof.Alg.lean ====
import proofs.«101691_g50706383897204_cont_8to1c4_451_17_alg».proof.Defs
import proofs.«101691_g50706383897204_cont_8to1c4_451_17_alg».proof.Proof.FrameIdeal.Body
import proofs.«101691_g50706383897204_cont_8to1c4_451_17_alg».proof.Proof.FrameIdeal.Launch
import proofs.«101691_g50706383897204_cont_8to1c4_451_17_alg».proof.Proof.KFinal
import proofs.«101691_g50706383897204_cont_8to1c4_451_17_alg».proof.Proof.KBlock
import proofs.«101691_g50706383897204_cont_8to1c4_451_17_alg».proof.Proof.Spec
import proofs.«101691_g50706383897204_cont_8to1c4_451_17_alg».proof.Proof.RefValue
import proofs.«101691_g50706383897204_cont_8to1c4_451_17_alg».proof.Proof.Finite
import proofs.«101691_g50706383897204_cont_8to1c4_451_17_alg».proof.Proof.Gen.ReferenceIdeal.Run
import proofs.«101691_g50706383897204_cont_8to1c4_451_17_alg».proof.Proof.Gen.ReferenceIdeal.Read

/-! # The kernel and the reference compute one function

A dense GraphSAGE layer, hidden = [x | adj · x] · Wᵀ + b with W = [W₁ | W₂].

At the ideal model (floats are extended reals, operations exact) the kernel's result array ends at
the reassociated arrangement (x · W₁ᵀ + b) + adj · (x · W₂ᵀ) of its arguments, and the reference's at
the concatenation form [x | adj · x] · Wᵀ + b of its own. The two memories agree on the arguments, and
under the precondition every entry of x, adj and W is a real number; on real data the two
arrangements are equal entry by entry, by associativity of the matrix product (exchange of two finite
sums and distributivity, which is where finiteness is used). The bias may be anything. -/

noncomputable section

namespace Cert.Alg

open Idealize.ShloMosaic Idealize.ShloMosaic.TcCoe Idealize.SL.Sem
open Cert.KernelIdeal Cert.KernelIdeal.Gen Cert.KernelIdeal.Frame

/-- The layer's value on the launch contents of the kernel's four arguments, on device c: the
    reassociated arrangement (x · W₁ᵀ + b) + adj · (x · W₂ᵀ). -/
abbrev value (m : (ℓ : Loc nD τ sig) → Buf (Elt Ideal) ℓ) (c : Dev nD) : Buf (Elt Ideal) ((c.tc : Thread nD τ).loc main_v2) :=
  Cert.Spec.outK (m ((c.tc : Thread nD τ).loc main_arg0)) (m ((c.tc : Thread nD τ).loc main_arg1))
    (m ((c.tc : Thread nD τ).loc main_arg2)) (m ((c.tc : Thread nD τ).loc main_arg3))

/-- Under the precondition every entry of x, adj and W is a real number, on every device. -/
theorem real_args (m : (ℓ : Loc nD τ sig) → Buf (Elt Ideal) ℓ) (hpre : Cert.Pre_KernelIdeal m) (c : Dev nD) :
    (∀ i, ∃ r : ℝ, m ((c.tc : Thread nD τ).loc main_arg0) i = (r : EReal))
      ∧ (∀ i, ∃ r : ℝ, m ((c.tc : Thread nD τ).loc main_arg1) i = (r : EReal))
      ∧ (∀ i, ∃ r : ℝ, m ((c.tc : Thread nD τ).loc main_arg2) i = (r : EReal)) :=
  Cert.Finite.real_of_pre _ _ _ _ (hpre c)

/-- The kernel's run: it terminates, its result array ends at the layer's value (the reassociated
    arrangement) and its four arguments end as launched. The result is read off the buffers at the end
    of the program; the three arguments the windows read are inputs of the region, whose arrays end as
    they entered, and the bias is written by neither reshape. -/
theorem kernel_run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v2) = value m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  have kv : ∀ c, Wfin (F := Ideal) m c main_v2 = value m c :=
    fun c => Cert.KernelIdeal.KFinal.kernel_value m c (fun t h r o => Cert.KernelIdeal.KBlock.block_value m c t h r o)
  exact (θ_run defs _ _).mono (fun _ h c => ⟨
    ((h c).2 main_v2 (Pipeline.mem_restRefs_of main_v2 (by decide) (by decide))).trans (kv c),
    ((h c).1 2).trans (((dats m 0 c).arrAt_in 2 rfl _).trans ((A_eq m c 2).trans (V_main_arg0 m c))),
    ((h c).1 0).trans (((dats m 0 c).arrAt_in 0 rfl _).trans ((A_eq m c 0).trans (V_main_arg1 m c))),
    ((h c).1 3).trans (((dats m 0 c).arrAt_in 3 rfl _).trans ((A_eq m c 3).trans (V_main_arg2 m c))),
    ((h c).2 main_arg3 (Pipeline.mem_restRefs_of main_arg3 (by decide) (by decide))).trans ((Wfin_arg3 m c).trans (V_main_arg3 m c))⟩)
    (run_main (F := Ideal) m g fun c => (body_obligation m c).loose)

/-- At the ideal model, from memories agreeing on the arguments, the kernel and the reference end with
    the same result. The kernel's result is the reassociated arrangement outK of its arguments; the
    reference's is the concatenation form outR of its own, which are the kernel's; and on real data
    (the precondition) the two arrangements are one function, by associativity of the matrix product. -/
theorem algebraic : Cert.algebraic_KernelIdeal_ReferenceIdeal := by
  intro m g m' g' hpre hagree
  refine ⟨fun c => value m c, kernel_run m g, ?_⟩
  refine (θ_run Cert.ReferenceIdeal.defs _ _).mono (fun _ h c => ⟨(h c).1.trans ?_, (h c).2⟩)
    (Cert.ReferenceIdeal.Value.run (F := Ideal) m' g')
  obtain ⟨hx, hadj, hW⟩ := real_args m hpre c
  refine (Cert.ReferenceIdeal.Read.val_main_v6_eq (F := Ideal) _ _ _ _).trans ((Cert.RefValue.ref_eq _ _ _ _).trans ?_)
  rw [(hagree c).1, (hagree c).2.1, (hagree c).2.2.1, (hagree c).2.2.2]
  exact (Cert.Spec.outK_eq_outR _ _ _ _ hx hadj hW).symm

end Cert.Alg

end
-- ==== Proof.lean ====
/- The proof of Cert.Claim: the three frames, the (empty) idealization ledger, and the algebraic claim.

   The program is a dense GraphSAGE layer over 10000 nodes, hidden = [x | adj · x] · Wᵀ + b with
   W = [W₁ | W₂], computed by one pipelined region of 25 grid points between two reshapes.

   Frames. The kernel, at the bit-exact and at the ideal model alike, terminates with its four argument
   arrays as launched: the body obligation holds at every grid point (the first point fills the scratch
   with x · W₂ᵀ, every later point only reads it), the three arguments the windows read are inputs of the
   region, and the bias is written by neither reshape. The reference is a sequence of host operations
   whose run leaves its arguments unchanged.

   Idealization. No operation differs between the kernel and its idealized text: the claim is True.

   Algebraic. At the ideal model the kernel's result is (x · W₁ᵀ + b) + adj · (x · W₂ᵀ) and the reference's
   is [x | adj · x] · Wᵀ + b. Under the precondition x, adj and W hold real numbers, and on real data the
   two are equal entry by entry by associativity of the matrix product. -/
import proofs.«101691_g50706383897204_cont_8to1c4_451_17_alg».proof.Defs
import proofs.«101691_g50706383897204_cont_8to1c4_451_17_alg».proof.Proof.Gen.Kernel
import proofs.«101691_g50706383897204_cont_8to1c4_451_17_alg».proof.Proof.Gen.KernelIdeal
import proofs.«101691_g50706383897204_cont_8to1c4_451_17_alg».proof.Proof.Gen.ReferenceIdeal
import proofs.«101691_g50706383897204_cont_8to1c4_451_17_alg».proof.Proof.Gen.ReferenceIdeal.Run
import proofs.«101691_g50706383897204_cont_8to1c4_451_17_alg».proof.Proof.Gen.Pre_finite_inputs
import proofs.«101691_g50706383897204_cont_8to1c4_451_17_alg».proof.Proof.FrameBits.Frame
import proofs.«101691_g50706383897204_cont_8to1c4_451_17_alg».proof.Proof.FrameIdeal.Frame
import proofs.«101691_g50706383897204_cont_8to1c4_451_17_alg».proof.Proof.Alg

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Frame.frame m ρ,
  fun m ρ _ => Cert.KernelIdeal.Frame.frame m ρ,
  fun m ρ _ => (θ_run Cert.ReferenceIdeal.defs _ _).mono (fun _ h c => (h c).2) (Cert.ReferenceIdeal.Value.run (F := Ideal) m ρ),
  trivial,
  Cert.Alg.algebraic⟩

end Cert.Proof

end
